-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x524288 : Shape := ⟨2, ![64, 524288]⟩
abbrev S524288x4 : Shape := ⟨2, ![524288, 4]⟩
abbrev S_ : Shape := ⟨0, ![]⟩

class Facts : Prop where
  bcast_S_S64x524288 : S_.BroadcastsInDim S64x524288 (![] : Fin 0 → Fin S64x524288.rank)
  reducesTo_S64x524288_S_d0_1 : S64x524288.ReducesTo [0, 1] S_
  h_S_ : 0 < S_.numel
  bcast_S_S524288x4 : S_.BroadcastsInDim S524288x4 (![] : Fin 0 → Fin S524288x4.rank)
  reducesTo_S524288x4_S_d0_1 : S524288x4.ReducesTo [0, 1] S_

variable [Facts]

def fn {F : FTy → Type} [FloatOps F] (main_arg0 : FVec F S64x524288 .f32) (main_arg1 : IVec S524288x4 32) (main_arg2 : IVec S524288x4 32) : IVec S_ 1 :=
  let main_v0 : FVec F S64x524288 .f32 := Host.absf main_arg0
  let main_cst : FVec F S_ .f32 := constant S_ .f32 0x7F800000#32
  let main_v1 : FVec F S64x524288 .f32 := broadcastInDim S64x524288 ![] bcast_S_S64x524288 main_cst
  let main_v2 : IVec S64x524288 1 := cmpf .olt main_v0 main_v1
  let main_c : IVec S_ 1 := constantI S_ 1 1#1
  let main_v3 : IVec S_ 1 := (fun x v => Host.reduce IntOp.andi x v reducesTo_S64x524288_S_d0_1 h_S_) main_v2 main_c
  let main_c_0 : IVec S_ 32 := constantI S_ 32 0#32
  let main_v4 : IVec S524288x4 32 := broadcastInDim S524288x4 ![] bcast_S_S524288x4 main_c_0
  let main_v5 : IVec S524288x4 1 := cmpi .sge main_arg1 main_v4
  let main_c_1 : IVec S_ 1 := constantI S_ 1 1#1
  let main_v6 : IVec S_ 1 := (fun x v => Host.reduce IntOp.andi x v reducesTo_S524288x4_S_d0_1 h_S_) main_v5 main_c_1
  let main_v7 : IVec S_ 1 := andi main_v3 main_v6
  let main_c_2 : IVec S_ 32 := constantI S_ 32 0#32
  let main_v8 : IVec S524288x4 32 := broadcastInDim S524288x4 ![] bcast_S_S524288x4 main_c_2
  let main_v9 : IVec S524288x4 1 := cmpi .sge main_arg2 main_v8
  let main_c_3 : IVec S_ 1 := constantI S_ 1 1#1
  let main_v10 : IVec S_ 1 := (fun x v => Host.reduce IntOp.andi x v reducesTo_S524288x4_S_d0_1 h_S_) main_v9 main_c_3
  let main_v11 : IVec S_ 1 := andi main_v7 main_v10
  let main_c_4 : IVec S_ 32 := constantI S_ 32 1#32
  let main_v12 : IVec S524288x4 32 := broadcastInDim S524288x4 ![] bcast_S_S524288x4 main_c_4
  let main_v13 : IVec S524288x4 1 := cmpi .sle main_arg2 main_v12
  let main_c_5 : IVec S_ 1 := constantI S_ 1 1#1
  let main_v14 : IVec S_ 1 := (fun x v => Host.reduce IntOp.andi x v reducesTo_S524288x4_S_d0_1 h_S_) main_v13 main_c_5
  let main_v15 : IVec S_ 1 := andi main_v11 main_v14
  main_v15
-- ==== Kernel.lean ====
abbrev S64x524288 : Shape := ⟨2, ![64, 524288]⟩
abbrev S524288x4 : Shape := ⟨2, ![524288, 4]⟩
abbrev S_ : Shape := ⟨0, ![]⟩
abbrev S2x64x8192 : Shape := ⟨3, ![2, 64, 8192]⟩
abbrev S64x128 : Shape := ⟨2, ![64, 128]⟩
abbrev S128x4 : Shape := ⟨2, ![128, 4]⟩
abbrev S1x64x8192 : Shape := ⟨3, ![1, 64, 8192]⟩
abbrev S64x8192 : Shape := ⟨2, ![64, 8192]⟩
abbrev S128x8192 : Shape := ⟨2, ![128, 8192]⟩
abbrev S128x1 : Shape := ⟨2, ![128, 1]⟩

abbrev nBuf : Space → Nat
  | .hbm => 19
  | .vmem => 7
  | .smem => 0
  | _ => 0

abbrev bufTy : (tb : Table) → Fin (tcTables nBuf tb) → BufTy
  | .hbm, ⟨0, _⟩ => ⟨S64x524288, .f32⟩
  | .hbm, ⟨1, _⟩ => ⟨S524288x4, .i32⟩
  | .hbm, ⟨2, _⟩ => ⟨S524288x4, .i32⟩
  | .hbm, ⟨3, _⟩ => ⟨S524288x4, .f32⟩
  | .hbm, ⟨4, _⟩ => ⟨S_, .f32⟩
  | .hbm, ⟨5, _⟩ => ⟨S524288x4, .f32⟩
  | .hbm, ⟨6, _⟩ => ⟨S524288x4, .f32⟩
  | .hbm, ⟨7, _⟩ => ⟨S_, .f32⟩
  | .hbm, ⟨8, _⟩ => ⟨S524288x4, .f32⟩
  | .hbm, ⟨9, _⟩ => ⟨S524288x4, .f32⟩
  | .hbm, ⟨10, _⟩ => ⟨S_, .f32⟩
  | .hbm, ⟨11, _⟩ => ⟨S524288x4, .f32⟩
  | .hbm, ⟨12, _⟩ => ⟨S524288x4, .f32⟩
  | .hbm, ⟨13, _⟩ => ⟨S2x64x8192, .f32⟩
  | .hbm, ⟨14, _⟩ => ⟨S1x64x8192, .f32⟩
  | .hbm, ⟨15, _⟩ => ⟨S64x8192, .f32⟩
  | .hbm, ⟨16, _⟩ => ⟨S1x64x8192, .f32⟩
  | .hbm, ⟨17, _⟩ => ⟨S64x8192, .f32⟩
  | .hbm, ⟨18, _⟩ => ⟨S64x8192, .f32⟩
  | .local _ .vmem, ⟨0, _⟩ => ⟨S64x128, .f32⟩
  | .local _ .vmem, ⟨1, _⟩ => ⟨S64x128, .f32⟩
  | .local _ .vmem, ⟨2, _⟩ => ⟨S128x4, .i32⟩
  | .local _ .vmem, ⟨3, _⟩ => ⟨S128x4, .i32⟩
  | .local _ .vmem, ⟨4, _⟩ => ⟨S128x4, .f32⟩
  | .local _ .vmem, ⟨5, _⟩ => ⟨S128x4, .f32⟩
  | .local _ .vmem, ⟨6, _⟩ => ⟨S1x64x8192, .f32⟩
  | _, _ => ⟨S64x524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 2048], ![false, false]⟩

def cc0_transform_0 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

class Facts₀ : Prop where
  bcast_S_S524288x4 : S_.BroadcastsInDim S524288x4 (![] : Fin 0 → Fin S524288x4.rank)
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  shapeCasts_S64x8192_S1x64x8192 : S64x8192.ShapeCasts S1x64x8192
  iota_S128x8192_d1_w32 : S128x8192.Iotas .tc 32 [1]
  inb_S128x4_S128x1_0_0 : ∀ a, (![0, 0] : Fin 2 → Nat) a + S128x1.size a ≤ S128x4.size a
  h_S128x1 : 0 < S128x1.numel
  shapeCasts_S128x1_S128x1 : S128x1.ShapeCasts S128x1
  broadcasts_S128x1_S128x8192 : S128x1.Broadcasts S128x8192
  inb_S128x4_S128x1_0_1 : ∀ a, (![0, 1] : Fin 2 → Nat) a + S128x1.size a ≤ S128x4.size a
  inb_S128x4_S128x1_0_2 : ∀ a, (![0, 2] : Fin 2 → Nat) a + S128x1.size a ≤ S128x4.size a
  inb_S128x4_S128x1_0_3 : ∀ a, (![0, 3] : Fin 2 → Nat) a + S128x1.size a ≤ S128x4.size a
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  slices_S2x64x8192_S1x64x8192_0_0_0 : S2x64x8192.Slices ![0, 0, 0] S1x64x8192
  slices_S2x64x8192_S1x64x8192_1_0_0 : S2x64x8192.Slices ![1, 0, 0] S1x64x8192
  dot_S64x128_S128x8192_S64x8192_1_0_0_1_n_n_wf : DotDims.WF S64x128 S128x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x524288.size a
  hwx0_0 : ∀ i : grid0.Coords, EltTy.bits .f32 = 32 ∨ (Rect.block (s := S64x524288) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S524288x4.size a
  hwx0_1 : ∀ i : grid0.Coords, EltTy.bits .i32 = 32 ∨ (Rect.block (s := S524288x4) S128x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4.size a ≤ S524288x4.size a
  hwx0_2 : ∀ i : grid0.Coords, EltTy.bits .f32 = 32 ∨ (Rect.block (s := S524288x4) S128x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64x8192.size a ≤ S2x64x8192.size a
  hwx0_3 : ∀ i : grid0.Coords, EltTy.bits .f32 = 32 ∨ (Rect.block (s := S2x64x8192) S1x64x8192.size (cc0_transform_3 i) (hinb0_3 i)).WholeWords (EltTy.packing .f32)

variable [Facts₀]

def dot_S64x128_S128x8192_S64x8192_1_0_0_1_n_n : DotDims S64x128 S128x8192 S64x8192 where
  lhsContracting := [1]
  rhsContracting := [0]
  lhsNonContracting := [0]
  rhsNonContracting := [1]
  lhsBatch := []
  rhsBatch := []
  wf := dot_S64x128_S128x8192_S64x8192_1_0_0_1_n_n_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x64x8192.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x524288 : Shape := ⟨2, ![64, 524288]⟩
abbrev S524288x4 : Shape := ⟨2, ![524288, 4]⟩
abbrev S_ : Shape := ⟨0, ![]⟩
abbrev S64x8192 : Shape := ⟨2, ![64, 8192]⟩
abbrev S524288x1 : Shape := ⟨2, ![524288, 1]⟩
abbrev S524288 : Shape := ⟨1, ![524288]⟩
abbrev S1x524288 : Shape := ⟨2, ![1, 524288]⟩

abbrev nBuf : Space → Nat
  | .hbm => 82
  | .vmem => 0
  | .smem => 0
  | _ => 0

abbrev bufTy : (tb : Table) → Fin (tcTables nBuf tb) → BufTy
  | .hbm, ⟨0, _⟩ => ⟨S64x524288, .f32⟩
  | .hbm, ⟨1, _⟩ => ⟨S524288x4, .i32⟩
  | .hbm, ⟨2, _⟩ => ⟨S524288x4, .i32⟩
  | .hbm, ⟨3, _⟩ => ⟨S_, .i32⟩
  | .hbm, ⟨4, _⟩ => ⟨S524288x4, .i32⟩
  | .hbm, ⟨5, _⟩ => ⟨S524288x4, .i32⟩
  | .hbm, ⟨6, _⟩ => ⟨S_, .i32⟩
  | .hbm, ⟨7, _⟩ => ⟨S524288x4, .i32⟩
  | .hbm, ⟨8, _⟩ => ⟨S524288x4, .i32⟩
  | .hbm, ⟨9, _⟩ => ⟨S524288x4, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64x8192, .f32⟩
  | .hbm, ⟨16, _⟩ => ⟨S524288x1, .i32⟩
  | .hbm, ⟨17, _⟩ => ⟨S524288, .i32⟩
  | .hbm, ⟨18, _⟩ => ⟨S524288x1, .f32⟩
  | .hbm, ⟨19, _⟩ => ⟨S524288, .f32⟩
  | .hbm, ⟨20, _⟩ => ⟨S1x524288, .f32⟩
  | .hbm, ⟨21, _⟩ => ⟨S64x524288, .f32⟩
  | .hbm, ⟨22, _⟩ => ⟨S64x524288, .f32⟩
  | .hbm, ⟨23, _⟩ => ⟨S_, .i32⟩
  | .hbm, ⟨24, _⟩ => ⟨S524288, .i32⟩
  | .hbm, ⟨25, _⟩ => ⟨S524288, .i1⟩
  | .hbm, ⟨26, _⟩ => ⟨S_, .i32⟩
  | .hbm, ⟨27, _⟩ => ⟨S524288, .i32⟩
  | .hbm, ⟨28, _⟩ => ⟨S524288, .i32⟩
  | .hbm, ⟨29, _⟩ => ⟨S524288, .i32⟩
  | .hbm, ⟨30, _⟩ => ⟨S524288x1, .i32⟩
  | .hbm, ⟨31, _⟩ => ⟨S64x8192, .f32⟩
  | .hbm, ⟨32, _⟩ => ⟨S524288x1, .i32⟩
  | .hbm, ⟨33, _⟩ => ⟨S524288, .i32⟩
  | .hbm, ⟨34, _⟩ => ⟨S524288x1, .f32⟩
  | .hbm, ⟨35, _⟩ => ⟨S524288, .f32⟩
  | .hbm, ⟨36, _⟩ => ⟨S1x524288, .f32⟩
  | .hbm, ⟨37, _⟩ => ⟨S64x524288, .f32⟩
  | .hbm, ⟨38, _⟩ => ⟨S64x524288, .f32⟩
  | .hbm, ⟨39, _⟩ => ⟨S_, .i32⟩
  | .hbm, ⟨40, _⟩ => ⟨S524288, .i32⟩
  | .hbm, ⟨41, _⟩ => ⟨S524288, .i1⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288, .i32⟩
  | .hbm, ⟨46, _⟩ => ⟨S524288x1, .i32⟩
  | .hbm, ⟨47, _⟩ => ⟨S64x8192, .f32⟩
  | .hbm, ⟨48, _⟩ => ⟨S524288x1, .i32⟩
  | .hbm, ⟨49, _⟩ => ⟨S524288, .i32⟩
  | .hbm, ⟨50, _⟩ => ⟨S524288x1, .f32⟩
  | .hbm, ⟨51, _⟩ => ⟨S524288, .f32⟩
  | .hbm, ⟨52, _⟩ => ⟨S1x524288, .f32⟩
  | .hbm, ⟨53, _⟩ => ⟨S64x524288, .f32⟩
  | .hbm, ⟨54, _⟩ => ⟨S64x524288, .f32⟩
  | .hbm, ⟨55, _⟩ => ⟨S_, .i32⟩
  | .hbm, ⟨56, _⟩ => ⟨S524288, .i32⟩
  | .hbm, ⟨57, _⟩ => ⟨S524288, .i1⟩
  | .hbm, ⟨58, _⟩ => ⟨S_, .i32⟩
  | .hbm, ⟨59, _⟩ => ⟨S524288, .i32⟩
  | .hbm, ⟨60, _⟩ => ⟨S524288, .i32⟩
  | .hbm, ⟨61, _⟩ => ⟨S524288, .i32⟩
  | .hbm, ⟨62, _⟩ => ⟨S524288x1, .i32⟩
  | .hbm, ⟨63, _⟩ => ⟨S64x8192, .f32⟩
  | .hbm, ⟨64, _⟩ => ⟨S524288x1, .i32⟩
  | .hbm, ⟨65, _⟩ => ⟨S524288, .i32⟩
  | .hbm, ⟨66, _⟩ => ⟨S524288x1, .f32⟩
  | .hbm, ⟨67, _⟩ => ⟨S524288, .f32⟩
  | .hbm, ⟨68, _⟩ => ⟨S1x524288, .f32⟩
  | .hbm, ⟨69, _⟩ => ⟨S64x524288, .f32⟩
  | .hbm, ⟨70, _⟩ => ⟨S64x524288, .f32⟩
  | .hbm, ⟨71, _⟩ => ⟨S_, .i32⟩
  | .hbm, ⟨72, _⟩ => ⟨S524288, .i32⟩
  | .hbm, ⟨73, _⟩ => ⟨S524288, .i1⟩
  | .hbm, ⟨74, _⟩ => ⟨S_, .i32⟩
  | .hbm, ⟨75, _⟩ => ⟨S524288, .i32⟩
  | .hbm, ⟨76, _⟩ => ⟨S524288, .i32⟩
  | .hbm, ⟨77, _⟩ => ⟨S524288, .i32⟩
  | .hbm, ⟨78, _⟩ => ⟨S524288x1, .i32⟩
  | .hbm, ⟨79, _⟩ => ⟨S64x8192, .f32⟩
  | .hbm, ⟨80, _⟩ => ⟨S64x8192, .f32⟩
  | .hbm, ⟨81, _⟩ => ⟨S64x8192, .f32⟩
  | _, _ => ⟨S64x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_5 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_7 : Ref sig .tc := ⟨.hbm, 55, rfl⟩
abbrev main_v43 : Ref sig .tc := ⟨.hbm, 56, rfl⟩
abbrev main_v44 : Ref sig .tc := ⟨.hbm, 57, rfl⟩
abbrev main_c_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_9 : Ref sig .tc := ⟨.hbm, 71, rfl⟩
abbrev main_v57 : Ref sig .tc := ⟨.hbm, 72, rfl⟩
abbrev main_v58 : Ref sig .tc := ⟨.hbm, 73, rfl⟩
abbrev main_c_10 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]

class Facts₀ : Prop where
  bcast_S_S524288x4 : S_.BroadcastsInDim S524288x4 (![] : Fin 0 → Fin S524288x4.rank)
  bcast_S_S64x8192 : S_.BroadcastsInDim S64x8192 (![] : Fin 0 → Fin S64x8192.rank)
  slices_S524288x4_S524288x1_0_0 : S524288x4.Slices ![0, 0] S524288x1
  shapeCasts_S524288x1_S524288 : S524288x1.ShapeCasts S524288
  bcast_S524288_S1x524288_1 : S524288.BroadcastsInDim S1x524288 (![1] : Fin 1 → Fin S1x524288.rank)
  bcast_S1x524288_S64x524288_0_1 : S1x524288.BroadcastsInDim S64x524288 (![0, 1] : Fin 2 → Fin S64x524288.rank)
  bcast_S_S524288 : S_.BroadcastsInDim S524288 (![] : Fin 0 → Fin S524288.rank)
  bcast_S524288_S524288x1_0 : S524288.BroadcastsInDim S524288x1 (![0] : Fin 1 → Fin S524288x1.rank)
  slices_S524288x4_S524288x1_0_1 : S524288x4.Slices ![0, 1] S524288x1
  slices_S524288x4_S524288x1_0_2 : S524288x4.Slices ![0, 2] S524288x1
  slices_S524288x4_S524288x1_0_3 : S524288x4.Slices ![0, 3] S524288x1
  scatter_S64x8192_S524288x1_S64x524288_0_1_1_1_wf : ScatterDims.WF S64x8192 S524288x1 S64x524288 [0] [1] [1] 1

variable [Facts₀]

def scatter_S64x8192_S524288x1_S64x524288_0_1_1_1 : ScatterDims S64x8192 S524288x1 S64x524288 where
  updateWindowDims := [0]
  insertedWindowDims := [1]
  scatterDimsToOperandDims := [1]
  indexVectorDim := 1
  wf := scatter_S64x8192_S524288x1_S64x524288_0_1_1_1_wf

class Facts : Prop extends Facts₀ where

variable [Facts]
-- ==== Proof.PreFacts.lean ====
/-
  What the precondition says, entry by entry: every entry of `x` is a real number; every column index word is
  non-negative read signed; every sign word is 0 or 1.

  The precondition is a conjunction of four "for all entries" tests, each an and-reduction of a mask of one-bit words
  over a whole array: |x| < +∞, idx ≥ 0, sign ≥ 0, sign ≤ 1 (the integer comparisons signed, against a constant
  broadcast to the array). The conjunction being 1 makes each reduction 1, hence each mask 1 at every entry. An
  extended real whose absolute value max x (-x) is below +∞ is neither infinity, so it is a real number; a word
  between 0 and 1 read signed is one of the two words 0 and 1.
-/
import proofs.«411114_j37185826848858_3_alg».proof.Pre_finite_inputs
import Idealize.ShloMosaic.PureOps.Ideal
import Idealize.ShloMosaic.Lib.ReduceAll
import Idealize.ShloMosaic.Lib.ValueIdx

noncomputable section

namespace Cert.Sjlt

open Idealize.ShloMosaic Idealize.ShloMosaic.ValueIdx

namespace PreFacts

/-- An extended real whose absolute value, the larger of it and its negation, is below +∞ is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- A 32-bit word between 0 and 1, read signed, is the word 0 or the word 1. -/
theorem word_zero_or_one (s : BitVec 32) (h0 : 0 ≤ s.toInt) (h1 : s.toInt ≤ 1) : s = 0#32 ∨ s = 1#32 := by
  have hc : s.toInt = 0 ∨ s.toInt = 1 := by omega
  rcases hc with hc | hc
  · exact Or.inl (BitVec.eq_of_toInt_eq (by rw [hc]; decide))
  · exact Or.inr (BitVec.eq_of_toInt_eq (by rw [hc]; decide))

end PreFacts

/-- The printed precondition, all ones, read entry by entry. -/
theorem pre_facts [Cert.Pre_finite_inputs.Facts]
    (X : FVec Ideal Cert.Pre_finite_inputs.S64x524288 .f32) (I S : IVec Cert.Pre_finite_inputs.S524288x4 32)
    (h : Cert.Pre_finite_inputs.fn (F := Ideal) X I S = fun _ => 1#1) :
    (∀ i, ∃ r : ℝ, X i = (r : EReal)) ∧ (∀ i, 0 ≤ (I i).toInt) ∧ (∀ i, S i = 0#32 ∨ S i = 1#32) := by
  -- the rank-0 result shape has one index
  haveI : Subsingleton Cert.Pre_finite_inputs.S_.Idx := ⟨fun a b => funext fun d => d.elim0⟩
  -- the one entry of the result: a conjunction of four reductions
  have h0 := congrFun h ix0
  dsimp only [Cert.Pre_finite_inputs.fn, andi] at h0
  rw [IntOp.andi_eq_one, IntOp.andi_eq_one, IntOp.andi_eq_one] at h0
  obtain ⟨⟨⟨hX, hI⟩, hS0⟩, hS1⟩ := h0
  refine ⟨fun i => ?_, fun i => ?_, fun i => ?_⟩
  · -- |X i| < +∞, the bit pattern 0x7F800000 denoting +∞
    have e := Host.reduce_andi_all _ _ _ _ _ hX i
    have htop : Ideal.ofBits .f32 0x7F800000#32 = ⊤ := by simp [Ideal.ofBits, Ideal.ieee]
    have e' : Ideal.cmp .olt (max (X i) (-(X i))) (Ideal.ofBits .f32 0x7F800000#32) = 1#1 := e
    rw [htop] at e'
    refine PreFacts.real_of_abs_lt_top (X i) ?_
    by_contra hn
    simp [Ideal.cmp, hn] at e'
  · -- 0 ≤ I i, signed
    have e := Host.reduce_andi_all _ _ _ _ _ hI i
    have e' : IntOp.cmpi .sge (I i) 0#32 = 1#1 := e
    exact IntOp.cmpi_sge.1 e'
  · -- 0 ≤ S i ≤ 1, signed
    have e0 := Host.reduce_andi_all _ _ _ _ _ hS0 i
    have e1 := Host.reduce_andi_all _ _ _ _ _ hS1 i
    have e0' : IntOp.cmpi .sge (S i) 0#32 = 1#1 := e0
    have e1' : IntOp.cmpi .sle (S i) 1#32 = 1#1 := e1
    exact PreFacts.word_zero_or_one (S i) (IntOp.cmpi_sge.1 e0') (IntOp.cmpi_sle.1 e1')

end Cert.Sjlt

end
-- ==== Proof.Spec.lean ====
/-
  The common specification of the sparse sign projection.

  Data: `xr b d` a real matrix [64, 524288]; `I d j` a column index word and `S d j` a sign word, [524288, 4] each.
  Entry `(d, j)` contributes `xr b d · (2·S d j − 1)` to output column `p` exactly when the word `I d j`, read as a
  natural number, is `p`; the whole is scaled by 1/2:

      T b p = (1/2) · ∑ⱼ ∑_d [I d j = p] · xr b d · (2·S d j − 1).

  The kernel computes the same number in another arrangement (`Kval`): the 524288 rows are cut into 4096 tiles of
  128 rows; tile `t` contributes the matrix product of the x-tile with a coefficient tile
  `coeff d p = ((e₀ + e₁) + e₂) + e₃`, `eⱼ = [I d j = p] · (2·S d j − 1)·(1/2)`; tiles 0 … 2047 are summed into one
  slab, tiles 2048 … 4095 into a second, and the two slabs are added.
-/
import Idealize.ShloMosaic.Lib.ValueIdx
import Mathlib.Algebra.BigOperators.Fin
import Mathlib.Data.EReal.Basic

noncomputable section

namespace Cert.Sjlt

open Idealize.ShloMosaic Idealize.ShloMosaic.ValueIdx

/-- The shapes of the data, spelled as the printed programs spell them. -/
abbrev SX : Shape := ⟨2, ![64, 524288]⟩
abbrev SI : Shape := ⟨2, ![524288, 4]⟩
abbrev SO : Shape := ⟨2, ![64, 8192]⟩

/-- The sign a sign word stands for: `2·s − 1` (so `0 ↦ −1`, `1 ↦ +1`). -/
def sgn (S : IVec SI 32) (d : Fin 524288) (j : Fin 4) : ℝ := 2 * ((S (ix2 d j)).toInt : ℝ) - 1

/-- The projection: entry `(b, p)`. -/
def T (xr : SX.Idx → ℝ) (I S : IVec SI 32) (b : Fin 64) (p : Fin 8192) : ℝ :=
  (1 / 2) * ∑ j : Fin 4, ∑ d : Fin 524288, if (I (ix2 d j)).toNat = p.val then xr (ix2 b d) * sgn S d j else 0

/-- Row `r` of tile `t`. -/
def dOf (t : Fin 4096) (r : Fin 128) : Fin 524288 := ⟨t.val * 128 + r.val, by have := t.isLt; have := r.isLt; omega⟩

/-- The scaled sign the kernel is handed: `(2·s − 1)·(1/2)`. -/
def half (S : IVec SI 32) (d : Fin 524288) (j : Fin 4) : ℝ := (2 * ((S (ix2 d j)).toInt : ℝ) - 1) * (1 / 2)

/-- One of the four one-hot terms of a coefficient. -/
def term (I S : IVec SI 32) (d : Fin 524288) (p : Fin 8192) (j : Fin 4) : ℝ :=
  if (I (ix2 d j)).toNat = p.val then half S d j else 0

/-- The coefficient of row `d` for column `p`, in the kernel's order of addition. -/
def coeff (I S : IVec SI 32) (d : Fin 524288) (p : Fin 8192) : ℝ :=
  ((term I S d p 0 + term I S d p 1) + term I S d p 2) + term I S d p 3

/-- Tile `t`'s matrix product at `(b, p)`. -/
def Mr (xr : SX.Idx → ℝ) (I S : IVec SI 32) (t : Fin 4096) (b : Fin 64) (p : Fin 8192) : ℝ :=
  ∑ r : Fin 128, xr (ix2 b (dOf t r)) * coeff I S (dOf t r) p

/-- What a slab holds after tile `n`: the products of the tiles since the slab's last reset (the resets are at the
    multiples of 2048). -/
def acc (xr : SX.Idx → ℝ) (I S : IVec SI 32) (n : ℕ) (b : Fin 64) (p : Fin 8192) : ℝ :=
  ∑ t ∈ Finset.univ.filter (fun t : Fin 4096 => n - n % 2048 ≤ t.val ∧ t.val ≤ n), Mr xr I S t b p

/-- The kernel's result: the two slabs, added. -/
def Kval (xr : SX.Idx → ℝ) (I S : IVec SI 32) (b : Fin 64) (p : Fin 8192) : ℝ :=
  acc xr I S 2047 b p + acc xr I S 4095 b p

/-- A finite sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Sjlt

end
-- ==== Proof.Algebra.lean ====
/-
  The kernel's arrangement of the projection is the projection: over the reals, the sum over the 4096 tiles of the
  128-row matrix products, split into two slabs, is the sum over all 524288 rows; a row's coefficient
  `((e₀ + e₁) + e₂) + e₃` is the sum over the four entries `j`; and the factor 1/2 inside each entry comes out of
  the whole sum.
-/
import proofs.«411114_j37185826848858_3_alg».proof.Proof.Spec
import Mathlib.Algebra.BigOperators.Fin
import Mathlib.Algebra.BigOperators.Group.Finset.Basic
import Mathlib.Algebra.BigOperators.Ring.Finset
import Mathlib.Data.Fintype.BigOperators
import Mathlib.Tactic.Ring

noncomputable section

namespace Cert.Sjlt

open Idealize.ShloMosaic Idealize.ShloMosaic.ValueIdx

/-- The two slabs together hold every tile exactly once: the first slab's window is `0 ≤ t ≤ 2047`, the second's
    `2048 ≤ t ≤ 4095`, and over `Fin 4096` these are a predicate and its negation. -/
private theorem slabs_sum (f : Fin 4096 → ℝ) :
    (∑ t ∈ Finset.univ.filter (fun t : Fin 4096 => 2047 - 2047 % 2048 ≤ t.val ∧ t.val ≤ 2047), f t)
      + (∑ t ∈ Finset.univ.filter (fun t : Fin 4096 => 4095 - 4095 % 2048 ≤ t.val ∧ t.val ≤ 4095), f t)
      = ∑ t : Fin 4096, f t := by
  have h1 : Finset.univ.filter (fun t : Fin 4096 => 2047 - 2047 % 2048 ≤ t.val ∧ t.val ≤ 2047)
      = Finset.univ.filter (fun t : Fin 4096 => t.val ≤ 2047) := by
    apply Finset.filter_congr
    intro t _
    constructor
    · intro h; exact h.2
    · intro h; exact ⟨by omega, h⟩
  have h2 : Finset.univ.filter (fun t : Fin 4096 => 4095 - 4095 % 2048 ≤ t.val ∧ t.val ≤ 4095)
      = Finset.univ.filter (fun t : Fin 4096 => ¬ t.val ≤ 2047) := by
    apply Finset.filter_congr
    intro t _
    have := t.isLt
    constructor
    · intro h; omega
    · intro h; exact ⟨by omega, by omega⟩
  rw [h1, h2, Finset.sum_filter_add_sum_filter_not]

/-- Tile and row-in-tile are the quotient and remainder of the row number by 128. -/
private def tileEquiv : (Fin 4096 × Fin 128) ≃ Fin 524288 where
  toFun x := dOf x.1 x.2
  invFun d := (⟨d.val / 128, by have := d.isLt; omega⟩, ⟨d.val % 128, by omega⟩)
  left_inv x := by
    obtain ⟨t, r⟩ := x
    have ht := t.isLt
    have hr := r.isLt
    apply Prod.ext
    · apply Fin.ext
      show (t.val * 128 + r.val) / 128 = t.val
      omega
    · apply Fin.ext
      show (t.val * 128 + r.val) % 128 = r.val
      omega
  right_inv d := by
    apply Fin.ext
    show d.val / 128 * 128 + d.val % 128 = d.val
    omega

/-- Summing over the tiles and then over the rows of a tile is summing over all rows. -/
private theorem tiles_sum (g : Fin 524288 → ℝ) :
    (∑ t : Fin 4096, ∑ r : Fin 128, g (dOf t r)) = ∑ d : Fin 524288, g d := by
  rw [← Fintype.sum_prod_type' (fun (t : Fin 4096) (r : Fin 128) => g (dOf t r))]
  exact Fintype.sum_equiv tileEquiv _ _ (fun _ => rfl)

/-- One entry of a row: the selected scaled sign times the data is half the selected signed data. -/
private theorem entry_eq (xr : SX.Idx → ℝ) (I S : IVec SI 32) (b : Fin 64) (p : Fin 8192) (d : Fin 524288)
    (j : Fin 4) :
    xr (ix2 b d) * term I S d p j
      = (1 / 2) * (if (I (ix2 d j)).toNat = p.val then xr (ix2 b d) * sgn S d j else 0) := by
  unfold term half sgn
  split_ifs <;> ring

/-- One row: the data times the row's coefficient is the sum of its four entries. -/
private theorem row_eq (xr : SX.Idx → ℝ) (I S : IVec SI 32) (b : Fin 64) (p : Fin 8192) (d : Fin 524288) :
    xr (ix2 b d) * coeff I S d p
      = ∑ j : Fin 4, (1 / 2) * (if (I (ix2 d j)).toNat = p.val then xr (ix2 b d) * sgn S d j else 0) := by
  rw [Fin.sum_univ_four, ← entry_eq xr I S b p d 0, ← entry_eq xr I S b p d 1, ← entry_eq xr I S b p d 2,
    ← entry_eq xr I S b p d 3]
  unfold coeff
  ring

/-- The kernel's value is the projection. -/
theorem Kval_eq_T (xr : SX.Idx → ℝ) (I S : IVec SI 32) (b : Fin 64) (p : Fin 8192) :
    Kval xr I S b p = T xr I S b p := by
  unfold Kval acc
  rw [slabs_sum (fun t => Mr xr I S t b p)]
  unfold Mr
  rw [tiles_sum (fun d => xr (ix2 b d) * coeff I S d p)]
  unfold T
  rw [Finset.sum_congr rfl (fun d _ => row_eq xr I S b p d), Finset.sum_comm, Finset.mul_sum]
  apply Finset.sum_congr rfl
  intro j _
  rw [Finset.mul_sum]

end Cert.Sjlt

end
-- ==== Proof.RefValue.lean ====
/-
  The reference's result, read index by index at the ideal instance: four accumulating scatters of
  `x · (2·s − 1)` along the column indices, scaled by `1 / sqrt 4`, is the projection `T`.

  The scatter's dimension numbers send update index `(b, d)` to operand index `(b, idx d)`, the column word read
  signed and dropped when it leaves `[0, 8192)`; so the accumulating scatter at `(b, p)` adds, over the rows `d`
  whose word is `p`, the update at `(b, d)`. Under the hypotheses every word is non-negative (the normalising
  select keeps it) and every sign word is 0 or 1 (so `2·s − 1` does not wrap); all values are reals, and the four
  stages add the four column sums of `T`, which the last stage halves.
-/
import proofs.«411114_j37185826848858_3_alg».proof.Proof.Gen.ReferenceIdeal.Read
import proofs.«411114_j37185826848858_3_alg».proof.Proof.Spec
import Idealize.ShloMosaic.PureOps.Ideal.Laws
import Mathlib.Analysis.Real.Sqrt

noncomputable section

namespace Cert.Sjlt

open Idealize.ShloMosaic Idealize.ShloMosaic.ValueIdx Cert.ReferenceIdeal Cert.ReferenceIdeal.Gen

/-! ## The scatter's dimension numbers, read at an index -/

/-- The dimension numbers of the four scatters, over any proof of their conditions. -/
private abbrev rcd (wf : ScatterDims.WF S64x8192 S524288x1 S64x524288 [0] [1] [1] 1) :
    ScatterDims S64x8192 S524288x1 S64x524288 := ⟨[0], [1], [1], 1, wf⟩

section Record
variable (wf : ScatterDims.WF S64x8192 S524288x1 S64x524288 [0] [1] [1] 1)

/-- Axis 0 of the operand is not indexed: its window starts at 0. -/
private theorem start0 (u : S64x524288.Idx) (idx : IVec S524288x1 32) : (rcd wf).start u idx 0 = 0 := by
  unfold ScatterDims.start
  exact dif_neg (show ¬ ((0 : Fin 2) ∈ ([1] : List (Fin 2))) by decide)

/-- Axis 0 of the operand takes the update's axis 0 as its window coordinate. -/
private theorem window0 (u : S64x524288.Idx) : (rcd wf).window u 0 = (u 0).val := by
  unfold ScatterDims.window
  rw [dif_pos (show ((0 : Fin 2) ∈ S64x8192.kept [1]) by decide)]
  rfl

/-- Axis 1 of the operand is an inserted axis: window coordinate 0. -/
private theorem window1 (u : S64x524288.Idx) : (rcd wf).window u 1 = 0 := by
  unfold ScatterDims.window
  exact dif_neg (show ¬ ((1 : Fin 2) ∈ S64x8192.kept [1]) by decide)

/-- Axis 1 of the operand starts at the column word of the update's row, read signed. -/
private theorem start1 (u : S64x524288.Idx) (idx : IVec S524288x1 32) :
    (rcd wf).start u idx 1 = (idx (ix2 (u 1) 0)).toInt := by
  unfold ScatterDims.start
  rw [dif_pos (show ((1 : Fin 2) ∈ ([1] : List (Fin 2))) by decide)]
  congr 2
  funext b
  refine Fin.ext ?_
  match b with
  | ⟨0, _⟩ => rfl
  | ⟨1, _⟩ => rfl

/-- An update index lands at operand index `i` exactly when, on every axis, start plus window coordinate is
    `i`'s coordinate. -/
private theorem resultIdx?_iff {s si su : Shape} (d : ScatterDims s si su) {w : Nat} (u : su.Idx) (idx : IVec si w)
    (i : s.Idx) :
    d.resultIdx? u idx = some i ↔ ∀ a, d.start u idx a + (d.window u a : ℤ) = ((i a).val : ℤ) := by
  unfold ScatterDims.resultIdx?
  constructor
  · intro hr a
    split at hr
    · rename_i h
      have hf := Option.some.inj hr
      have ha : (d.start u idx a + (d.window u a : ℤ)).toNat = (i a).val := congrArg (fun f => (f a).val) hf
      have := h a
      omega
    · exact absurd hr (by simp)
  · intro hall
    have h : ∀ a, 0 ≤ d.start u idx a + d.window u a ∧ d.start u idx a + d.window u a < s.size a := by
      intro a; have := hall a; have := (i a).isLt; omega
    rw [dif_pos h]
    congr 1
    funext a
    apply Fin.ext
    show (d.start u idx a + d.window u a).toNat = (i a).val
    have := hall a; omega

/-- Update index `u` lands at `(b, p)` exactly when its axis 0 is `b` and its row's column word is `p`. -/
private theorem rcd_resultIdx?_iff (u : S64x524288.Idx) (idx : IVec S524288x1 32) (b : Fin 64) (p : Fin 8192) :
    (rcd wf).resultIdx? u idx = some (ix2 b p) ↔ u 0 = b ∧ (idx (ix2 (u 1) 0)).toInt = (p.val : ℤ) := by
  rw [resultIdx?_iff, Fin.forall_fin_two, start0, window0, start1, window1]
  constructor
  · rintro ⟨h0, h1⟩
    refine ⟨Fin.ext ?_, ?_⟩
    · have : ((u 0).val : ℤ) = (b.val : ℤ) := by simpa using h0
      exact_mod_cast this
    · simpa using h1
  · rintro ⟨h0, h1⟩
    subst h0
    refine ⟨by simp, by simpa using h1⟩

/-- The accumulating scatter along the column words, read at `(b, p)`: the operand there plus the updates of the
    rows whose word is `p`. -/
private theorem scatter_apply (x : S64x8192.Idx → EReal) (idx : IVec S524288x1 32) (upd : S64x524288.Idx → EReal)
    (b : Fin 64) (p : Fin 8192) :
    Ideal.hostScatterAdd (rcd wf) x idx upd (ix2 b p)
      = x (ix2 b p) + ∑ k : Fin 524288, if (idx (ix2 k 0)).toInt = (p.val : ℤ) then upd (ix2 b k) else 0 := by
  unfold Ideal.hostScatterAdd
  refine congrArg (x (ix2 b p) + ·) ?_
  rw [Finset.sum_filter, sum_idx2]
  rw [Finset.sum_eq_single b]
  · refine Finset.sum_congr rfl fun k _ => ?_
    by_cases h : (idx (ix2 k 0)).toInt = (p.val : ℤ)
    · rw [if_pos h, if_pos ((rcd_resultIdx?_iff wf (ix2 b k) idx b p).2 ⟨rfl, h⟩)]
    · rw [if_neg h, if_neg (fun h' => h ((rcd_resultIdx?_iff wf (ix2 b k) idx b p).1 h').2)]
  · intro a _ hab
    exact Finset.sum_eq_zero fun k _ => if_neg (fun h' => hab ((rcd_resultIdx?_iff wf (ix2 a k) idx b p).1 h').1)
  · intro h; exact absurd (Finset.mem_univ b) h

end Record

/-! ## Words -/

/-- A non-negative word is not below zero. -/
private theorem cmpi_slt_zero (x : BitVec 32) (h : 0 ≤ x.toInt) : IntOp.cmpi .slt x 0#32 = 0#1 := by
  unfold IntOp.cmpi
  have : x.slt 0#32 = false := by
    unfold BitVec.slt
    rw [decide_eq_false_iff_not]
    have : (0#32 : BitVec 32).toInt = 0 := by decide
    omega
  simp only [this]
  rfl

/-- On a sign word in {0, 1} the 32-bit `2·s − 1` does not wrap. -/
private theorem sign_word (s : BitVec 32) (h : s = 0#32 ∨ s = 1#32) :
    (IntOp.subi (IntOp.muli 2#32 s) 1#32).toInt = 2 * s.toInt - 1 := by
  rcases h with h | h <;> rw [h] <;> decide

/-- A non-negative word read signed is the word read as a natural number. -/
private theorem toInt_eq_iff (x : BitVec 32) (h : 0 ≤ x.toInt) (n : ℕ) : x.toInt = (n : ℤ) ↔ x.toNat = n := by
  have h1 := BitVec.toInt_eq_toNat_cond x
  have h2 := x.isLt
  split at h1 <;> omega

/-! ## Constants -/

private theorem ofBits_four : Ideal.ofBits .f32 0x40800000#32 = ((4 : ℝ) : EReal) := by
  simp [Ideal.ofBits, Ideal.ieee, -EReal.coe_mul]; norm_num

private theorem ofBits_one : Ideal.ofBits .f32 0x3F800000#32 = ((1 : ℝ) : EReal) := by
  simp [Ideal.ofBits, Ideal.ieee, -EReal.coe_mul]; norm_num

private theorem sqrt_four : Ideal.sqrt ((4 : ℝ) : EReal) = ((2 : ℝ) : EReal) := by
  rw [Ideal.sqrt_coe, if_neg (by norm_num)]
  have : Real.sqrt 4 = 2 := by
    rw [show (4 : ℝ) = 2 ^ 2 by norm_num, Real.sqrt_sq (by norm_num)]
  rw [this]

/-- The scale `1 / sqrt 4` is one half. -/
private theorem scale_val (i : S64x8192.Idx) : Read.val_main_v64 (F := Ideal) i = ((1 / 2 : ℝ) : EReal) := by
  rw [Read.val_main_v64_apply, Read.val_main_v6_apply, Read.val_main_cst_1_apply, Read.val_main_v5_apply,
    Read.val_main_cst_apply]
  show Ideal.div (Ideal.ofBits .f32 0x3F800000#32) (Ideal.sqrt (Ideal.ofBits .f32 0x40800000#32)) = _
  rw [ofBits_four, ofBits_one, sqrt_four, Ideal.div_coe (by norm_num), ← EReal.coe_mul, one_mul]

/-- The zero the scatters start from. -/
private theorem zero_val (i : S64x8192.Idx) : Read.val_main_v7 (F := Ideal) i = ((0 : ℝ) : EReal) := by
  rw [Read.val_main_v7_apply, Read.val_main_cst_2_apply]
  show Ideal.ofBits .f32 0x00000000#32 = _
  rw [Ideal.ofBits_zero_f32, EReal.coe_zero]

/-! ## The signs -/

/-- The sign stage at an index: `2·s − 1` as a real. -/
private theorem sign_apply (S : IVec SI 32) (hS : ∀ i, S i = 0#32 ∨ S i = 1#32) (i : SI.Idx) :
    Read.val_main_v4 (F := Ideal) S i = ((2 * ((S i).toInt : ℝ) - 1 : ℝ) : EReal) := by
  rw [Read.val_main_v4_apply, Read.val_main_v3_apply, Read.val_main_v1_apply, Read.val_main_v0_apply,
    Read.val_main_c_apply, Read.val_main_v2_apply, Read.val_main_c_0_apply]
  show (((IntOp.subi (IntOp.muli 2#32 (S i)) 1#32).toInt : ℝ) : EReal) = _
  rw [sign_word _ (hS i)]
  push_cast
  rfl

/-! ## The four columns: the normalised words and the updates -/

private theorem colidx0 (I : IVec SI 32) (hI : ∀ i, 0 ≤ (I i).toInt) (k : Fin 524288) :
    Read.val_main_v20 (F := Ideal) I (ix2 k 0) = I (ix2 k 0) := by
  rw [Read.val_main_v20_apply, Read.val_main_v19_apply, Read.val_main_v16_apply, Read.val_main_v15_apply, Read.val_main_c_3_apply,
    Read.val_main_v9_apply, Read.val_main_v8_apply]
  have e : Read.idx_main_v8 (Read.idx_main_v9 (Read.idx_main_v20 (ix2 k 0))) = ix2 k 0 := by
    funext a
    match a with
    | ⟨0, _⟩ => exact Fin.ext (Nat.div_one _)
    | ⟨1, _⟩ => rfl
  rw [e, cmpi_slt_zero _ (hI _), select_zero]

private theorem colidx1 (I : IVec SI 32) (hI : ∀ i, 0 ≤ (I i).toInt) (k : Fin 524288) :
    Read.val_main_v34 (F := Ideal) I (ix2 k 0) = I (ix2 k 1) := by
  rw [Read.val_main_v34_apply, Read.val_main_v33_apply, Read.val_main_v30_apply, Read.val_main_v29_apply, Read.val_main_c_5_apply,
    Read.val_main_v23_apply, Read.val_main_v22_apply]
  have e : Read.idx_main_v22 (Read.idx_main_v23 (Read.idx_main_v34 (ix2 k 0))) = ix2 k 1 := by
    funext a
    match a with
    | ⟨0, _⟩ => exact Fin.ext (Nat.div_one _)
    | ⟨1, _⟩ => rfl
  rw [e, cmpi_slt_zero _ (hI _), select_zero]

private theorem colidx2 (I : IVec SI 32) (hI : ∀ i, 0 ≤ (I i).toInt) (k : Fin 524288) :
    Read.val_main_v48 (F := Ideal) I (ix2 k 0) = I (ix2 k 2) := by
  rw [Read.val_main_v48_apply, Read.val_main_v47_apply, Read.val_main_v44_apply, Read.val_main_v43_apply, Read.val_main_c_7_apply,
    Read.val_main_v37_apply, Read.val_main_v36_apply]
  have e : Read.idx_main_v36 (Read.idx_main_v37 (Read.idx_main_v48 (ix2 k 0))) = ix2 k 2 := by
    funext a
    match a with
    | ⟨0, _⟩ => exact Fin.ext (Nat.div_one _)
    | ⟨1, _⟩ => rfl
  rw [e, cmpi_slt_zero _ (hI _), select_zero]

private theorem colidx3 (I : IVec SI 32) (hI : ∀ i, 0 ≤ (I i).toInt) (k : Fin 524288) :
    Read.val_main_v62 (F := Ideal) I (ix2 k 0) = I (ix2 k 3) := by
  rw [Read.val_main_v62_apply, Read.val_main_v61_apply, Read.val_main_v58_apply, Read.val_main_v57_apply, Read.val_main_c_9_apply,
    Read.val_main_v51_apply, Read.val_main_v50_apply]
  have e : Read.idx_main_v50 (Read.idx_main_v51 (Read.idx_main_v62 (ix2 k 0))) = ix2 k 3 := by
    funext a
    match a with
    | ⟨0, _⟩ => exact Fin.ext (Nat.div_one _)
    | ⟨1, _⟩ => rfl
  rw [e, cmpi_slt_zero _ (hI _), select_zero]

private theorem upd0 (xr : SX.Idx → ℝ) (S : IVec SI 32) (hS : ∀ i, S i = 0#32 ∨ S i = 1#32) (b : Fin 64)
    (k : Fin 524288) :
    Read.val_main_v14 (F := Ideal) (fun i => ((xr i : ℝ) : EReal)) S (ix2 b k)
      = ((xr (ix2 b k) * sgn S k 0 : ℝ) : EReal) := by
  rw [Read.val_main_v14_apply, Read.val_main_v13_apply, Read.val_main_v12_apply, Read.val_main_v11_apply, Read.val_main_v10_apply]
  have e : Read.idx_main_v10 (Read.idx_main_v11 (Read.idx_main_v12 (Read.idx_main_v13 (ix2 b k)))) = ix2 k 0 := by
    funext a
    match a with
    | ⟨0, _⟩ => exact Fin.ext (Nat.div_one _)
    | ⟨1, _⟩ => rfl
  rw [e, sign_apply S hS, EReal.coe_mul]
  rfl

private theorem upd1 (xr : SX.Idx → ℝ) (S : IVec SI 32) (hS : ∀ i, S i = 0#32 ∨ S i = 1#32) (b : Fin 64)
    (k : Fin 524288) :
    Read.val_main_v28 (F := Ideal) (fun i => ((xr i : ℝ) : EReal)) S (ix2 b k)
      = ((xr (ix2 b k) * sgn S k 1 : ℝ) : EReal) := by
  rw [Read.val_main_v28_apply, Read.val_main_v27_apply, Read.val_main_v26_apply, Read.val_main_v25_apply, Read.val_main_v24_apply]
  have e : Read.idx_main_v24 (Read.idx_main_v25 (Read.idx_main_v26 (Read.idx_main_v27 (ix2 b k)))) = ix2 k 1 := by
    funext a
    match a with
    | ⟨0, _⟩ => exact Fin.ext (Nat.div_one _)
    | ⟨1, _⟩ => rfl
  rw [e, sign_apply S hS, EReal.coe_mul]
  rfl

private theorem upd2 (xr : SX.Idx → ℝ) (S : IVec SI 32) (hS : ∀ i, S i = 0#32 ∨ S i = 1#32) (b : Fin 64)
    (k : Fin 524288) :
    Read.val_main_v42 (F := Ideal) (fun i => ((xr i : ℝ) : EReal)) S (ix2 b k)
      = ((xr (ix2 b k) * sgn S k 2 : ℝ) : EReal) := by
  rw [Read.val_main_v42_apply, Read.val_main_v41_apply, Read.val_main_v40_apply, Read.val_main_v39_apply, Read.val_main_v38_apply]
  have e : Read.idx_main_v38 (Read.idx_main_v39 (Read.idx_main_v40 (Read.idx_main_v41 (ix2 b k)))) = ix2 k 2 := by
    funext a
    match a with
    | ⟨0, _⟩ => exact Fin.ext (Nat.div_one _)
    | ⟨1, _⟩ => rfl
  rw [e, sign_apply S hS, EReal.coe_mul]
  rfl

private theorem upd3 (xr : SX.Idx → ℝ) (S : IVec SI 32) (hS : ∀ i, S i = 0#32 ∨ S i = 1#32) (b : Fin 64)
    (k : Fin 524288) :
    Read.val_main_v56 (F := Ideal) (fun i => ((xr i : ℝ) : EReal)) S (ix2 b k)
      = ((xr (ix2 b k) * sgn S k 3 : ℝ) : EReal) := by
  rw [Read.val_main_v56_apply, Read.val_main_v55_apply, Read.val_main_v54_apply, Read.val_main_v53_apply, Read.val_main_v52_apply]
  have e : Read.idx_main_v52 (Read.idx_main_v53 (Read.idx_main_v54 (Read.idx_main_v55 (ix2 b k)))) = ix2 k 3 := by
    funext a
    match a with
    | ⟨0, _⟩ => exact Fin.ext (Nat.div_one _)
    | ⟨1, _⟩ => rfl
  rw [e, sign_apply S hS, EReal.coe_mul]
  rfl

/-! ## The four stages -/

/-- Column `j`'s part of entry `(b, p)`, before the scale. -/
private def col (xr : SX.Idx → ℝ) (I S : IVec SI 32) (b : Fin 64) (p : Fin 8192) (j : Fin 4) : ℝ :=
  ∑ d : Fin 524288, if (I (ix2 d j)).toNat = p.val then xr (ix2 b d) * sgn S d j else 0

/-- One accumulating scatter whose words are column `j`'s and whose updates are `x` times column `j`'s signs adds
    column `j`'s part to a real operand. -/
private theorem scatter_stage (xr : SX.Idx → ℝ) (I S : IVec SI 32) (hI : ∀ i, 0 ≤ (I i).toInt) (j : Fin 4)
    (x : S64x8192.Idx → EReal) (idx : IVec S524288x1 32) (upd : S64x524288.Idx → EReal) (b : Fin 64) (p : Fin 8192)
    (r : ℝ) (hx : x (ix2 b p) = ((r : ℝ) : EReal)) (hidx : ∀ k, idx (ix2 k 0) = I (ix2 k j))
    (hupd : ∀ k, upd (ix2 b k) = ((xr (ix2 b k) * sgn S k j : ℝ) : EReal)) :
    Host.scatterAdd (F := Ideal) (φ := .f32) scatter_S64x8192_S524288x1_S64x524288_0_1_1_1 x idx upd (ix2 b p)
      = ((r + col xr I S b p j : ℝ) : EReal) := by
  show Ideal.hostScatterAdd (rcd Facts₀.scatter_S64x8192_S524288x1_S64x524288_0_1_1_1_wf) x idx upd (ix2 b p) = _
  rw [scatter_apply, hx, EReal.coe_add]
  refine congrArg (((r : ℝ) : EReal) + ·) ?_
  unfold col
  rw [coe_sum]
  refine Finset.sum_congr rfl fun k _ => ?_
  rw [hidx k, hupd k]
  have hiff := toInt_eq_iff (I (ix2 k j)) (hI _) p.val
  by_cases h : (I (ix2 k j)).toNat = p.val
  · rw [if_pos h, if_pos (hiff.2 h)]
  · rw [if_neg h, if_neg (fun h' => h (hiff.1 h')), EReal.coe_zero]

section Stages
variable (xr : SX.Idx → ℝ) (I S : IVec SI 32) (hI : ∀ i, 0 ≤ (I i).toInt) (hS : ∀ i, S i = 0#32 ∨ S i = 1#32)
  (b : Fin 64) (p : Fin 8192)
include hI hS

private theorem stage0 :
    Read.val_main_v21 (F := Ideal) (fun i => ((xr i : ℝ) : EReal)) I S (ix2 b p)
      = ((0 + col xr I S b p 0 : ℝ) : EReal) := by
  unfold Read.val_main_v21
  exact scatter_stage xr I S hI 0 _ _ _ b p 0 (zero_val _) (colidx0 I hI) (upd0 xr S hS b)

private theorem stage1 :
    Read.val_main_v35 (F := Ideal) (fun i => ((xr i : ℝ) : EReal)) I S (ix2 b p)
      = ((0 + col xr I S b p 0 + col xr I S b p 1 : ℝ) : EReal) := by
  unfold Read.val_main_v35
  exact scatter_stage xr I S hI 1 _ _ _ b p _ (stage0 xr I S hI hS b p) (colidx1 I hI) (upd1 xr S hS b)

private theorem stage2 :
    Read.val_main_v49 (F := Ideal) (fun i => ((xr i : ℝ) : EReal)) I S (ix2 b p)
      = ((0 + col xr I S b p 0 + col xr I S b p 1 + col xr I S b p 2 : ℝ) : EReal) := by
  unfold Read.val_main_v49
  exact scatter_stage xr I S hI 2 _ _ _ b p _ (stage1 xr I S hI hS b p) (colidx2 I hI) (upd2 xr S hS b)

private theorem stage3 :
    Read.val_main_v63 (F := Ideal) (fun i => ((xr i : ℝ) : EReal)) I S (ix2 b p)
      = ((0 + col xr I S b p 0 + col xr I S b p 1 + col xr I S b p 2 + col xr I S b p 3 : ℝ) : EReal) := by
  unfold Read.val_main_v63
  exact scatter_stage xr I S hI 3 _ _ _ b p _ (stage2 xr I S hI hS b p) (colidx3 I hI) (upd3 xr S hS b)

end Stages

/-- The projection is half the sum of the four columns' parts. -/
private theorem T_eq (xr : SX.Idx → ℝ) (I S : IVec SI 32) (b : Fin 64) (p : Fin 8192) :
    T xr I S b p = (1 / 2) * (col xr I S b p 0 + col xr I S b p 1 + col xr I S b p 2 + col xr I S b p 3) := by
  unfold T col
  rw [Fin.sum_univ_four]

/-- The reference's last stage, at real-valued `x`, non-negative column words and sign words in {0, 1}, is the
    projection, entry by entry. -/
theorem ref_value (xr : SX.Idx → ℝ) (I S : IVec SI 32) (hI : ∀ i, 0 ≤ (I i).toInt) (hS : ∀ i, S i = 0#32 ∨ S i = 1#32) :
    Cert.ReferenceIdeal.Read.val_main_v65 (F := Ideal) (fun i => ((xr i : ℝ) : EReal)) I S
      = fun i => ((T xr I S (i 0) (i 1) : ℝ) : EReal) := by
  funext i
  obtain ⟨b, p, rfl⟩ : ∃ b p, i = ix2 b p := ⟨i 0, i 1, eq_ix2 i⟩
  show _ = ((T xr I S b p : ℝ) : EReal)
  rw [Read.val_main_v65_apply, scale_val, stage3 xr I S hI hS b p, T_eq]
  show ((_ : ℝ) : EReal) * ((_ : ℝ) : EReal) = _
  rw [← EReal.coe_mul]
  congr 1
  ring

end Cert.Sjlt

end
-- ==== Proof.KPieces.lean ====
/-
  What one grid point leaves in the output slab, as a function of the blocks it is handed.

  The body loads the x-tile [64, 128] whole, the four columns of the index tile and of the scaled-sign tile
  [128, 4], and the slab [1, 64, 8192]; it stores ONE value over the whole slab: the slab it loaded plus the matrix
  product of the x-tile with the coefficient tile built from the columns (`body`). At a point that resets the slab
  the body first stores the zero block and loads that back, so it leaves `body` of the zero block.
-/
import proofs.«411114_j37185826848858_3_alg».proof.Proof.Gen.KernelIdeal.Frame
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The zero slab a reset stores. -/
abbrev zeroSlab : FVec F S1x64x8192 .f32 := k0_pay2 (F := F)

/-- The value one point stores over the slab, from the x-tile `x0`, the index tile `x1`, the scaled-sign tile `x2`
    and the slab's contents `xo` when the point begins. -/
def body (x0 : Vec F S64x128 .f32) (x1 : Vec F S128x4 .i32) (x2 : Vec F S128x4 .f32) (xo : Vec F S1x64x8192 .f32) :
    FVec F S1x64x8192 .f32 :=
  k0_pay1 (iota Kind.tc S128x8192 32 [1] iota_S128x8192_d1_w32)
    (k0_pay3 (View.ld x1 (Rect.unit ![0, 0] ![128, 1] inb_S128x4_S128x1_0_0))
      (View.ld x2 (Rect.unit ![0, 0] ![128, 1] inb_S128x4_S128x1_0_0))
      (View.ld x1 (Rect.unit ![0, 1] ![128, 1] inb_S128x4_S128x1_0_1))
      (View.ld x2 (Rect.unit ![0, 1] ![128, 1] inb_S128x4_S128x1_0_1))
      (View.ld x1 (Rect.unit ![0, 2] ![128, 1] inb_S128x4_S128x1_0_2))
      (View.ld x2 (Rect.unit ![0, 2] ![128, 1] inb_S128x4_S128x1_0_2)))
    (View.ld x1 (Rect.unit ![0, 3] ![128, 1] inb_S128x4_S128x1_0_3))
    (k0_pay4 (View.ld x2 (Rect.unit ![0, 3] ![128, 1] inb_S128x4_S128x1_0_3)))
    x0 xo

/-- A point that does not reset: its one covering store leaves `body` over the slab as the point found it. -/
theorem out_B (c : Dev nD) (i : grid0.Coords) (a2 : Memref sig .tc .vmem S64x128 .f32) (h2 : a2.IsWhole)
    (a3 : Memref sig .tc .vmem S128x4 .i32) (h3 : a3.IsWhole) (a4 : Memref sig .tc .vmem S128x4 .f32) (h4 : a4.IsWhole)
    (a5 : Memref sig .tc .vmem S1x64x8192 .f32) (h5 : a5.IsWhole) (hc : ¬cond0_0 i)
    (x0 : Vec F S64x128 .f32) (x1 : Vec F S128x4 .i32) (x2 : Vec F S128x4 .f32) (xo : Vec F S1x64x8192 .f32) :
    out0_B_3 c i a2 h2 a3 h3 a4 h4 a5 h5 hc x0 x1 x2 xo = body x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread,
    View.ld_unit_zero (S := S1x64x8192) hz3, View.ld_unit_zero (S := S64x128) hz2]
  rfl

/-- A point that resets: the zero block is stored and read back, so the point leaves `body` over the zero slab. -/
theorem out_A (c : Dev nD) (i : grid0.Coords) (a2 : Memref sig .tc .vmem S64x128 .f32) (h2 : a2.IsWhole)
    (a3 : Memref sig .tc .vmem S128x4 .i32) (h3 : a3.IsWhole) (a4 : Memref sig .tc .vmem S128x4 .f32) (h4 : a4.IsWhole)
    (a5 : Memref sig .tc .vmem S1x64x8192 .f32) (h5 : a5.IsWhole) (hc : cond0_0 i)
    (x0 : Vec F S64x128 .f32) (x1 : Vec F S128x4 .i32) (x2 : Vec F S128x4 .f32) :
    out0_A_3 c i a2 h2 a3 h3 a4 h4 a5 h5 hc x0 x1 x2 = body x0 x1 x2 zeroSlab := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x64x8192) hz3]
  simp only [View.readAt_eq_ld, h2.read_unread, h3.read_unread, h4.read_unread, h5.read_unread,
    View.readCov_unit_zero (S := S1x64x8192) _ hz3,
    View.ld_unit_zero (S := S1x64x8192) hz3, View.ld_unit_zero (S := S64x128) hz2]
  rfl

end Cert.KernelIdeal.Val

end
-- ==== Proof.KPayload.lean ====
/-
  The value one grid point stores, read at an index over the extended reals: entry `(b, p)` of the slab becomes
  what it held plus `∑ᵣ x0 b r · coeff r p`, the coefficient `((e₀ + e₁) + e₂) + e₃` with
  `eⱼ = x2 r j` where the index word `x1 r j` is the column number `p` (as a 32-bit word) and `0` elsewhere.
  Changes of float format are the identity here, the matrix unit's product into the zero accumulator is the plain
  sum over the 128 contracted rows, and the lane iota reads its column number.
-/
import proofs.«411114_j37185826848858_3_alg».proof.Proof.KPieces
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen

/-- One one-hot term of a coefficient: the scaled sign where the index word is column `p`, zero elsewhere. -/
def pterm (x1 : Vec Ideal S128x4 .i32) (x2 : Vec Ideal S128x4 .f32) (r : Fin 128) (p : Fin 8192) (j : Fin 4) : EReal :=
  if x1 (ix2 r j) = BitVec.ofNat 32 p.val then x2 (ix2 r j) else 0

/-! ## The matrix product's dimension numbers, coordinate by coordinate -/

/-- The product's dimension numbers: `[64, 128]` by `[128, 8192]`, contracted over the 128 rows. -/
private abbrev DD : DotDims S64x128 S128x8192 S64x8192 := dot_S64x128_S128x8192_S64x8192_1_0_0_1_n_n

private theorem DD_rank : DD.contr.rank = 1 := rfl
private theorem DD_size : DD.contr.size ⟨0, by rw [DD_rank]; exact Nat.one_pos⟩ = 128 := rfl

private theorem DD_lhs1 (j : S64x8192.Idx) (k : DD.contr.Idx) :
    (DD.lhsIdx j k 1).val = (k ⟨0, by rw [DD_rank]; exact Nat.one_pos⟩).val :=
  DotDims.lhsIdx_val_of_single DD (cl := 1) rfl j k

private theorem DD_rhs0 (j : S64x8192.Idx) (k : DD.contr.Idx) :
    (DD.rhsIdx j k 0).val = (k ⟨0, by rw [DD_rank]; exact Nat.one_pos⟩).val :=
  DotDims.rhsIdx_val_of_single DD (cr := 0) rfl j k

private theorem DD_lhs0 (j : S64x8192.Idx) (k : DD.contr.Idx) : (DD.lhsIdx j k 0).val = (j 0).val := by
  unfold DotDims.lhsIdx
  rw [dif_neg (by decide), dif_pos (by decide)]
  rfl

private theorem DD_rhs1 (j : S64x8192.Idx) (k : DD.contr.Idx) : (DD.rhsIdx j k 1).val = (j 1).val := by
  unfold DotDims.rhsIdx
  rw [dif_neg (by decide), dif_pos (by decide)]
  rfl

/-- The left operand's index at output `(b, p)` and contracted row `r` is `(b, r)`. -/
private theorem DD_lhsIdx (b : Fin 64) (p : Fin 8192) (r : Fin 128) :
    DD.lhsIdx (ix2 b p) ((contrEquiv1 DD 128 DD_rank DD_size).symm r) = ix2 b r := by
  funext a
  refine Fin.ext ?_
  match a with
  | ⟨0, _⟩ => exact DD_lhs0 _ _
  | ⟨1, _⟩ => exact (DD_lhs1 _ _).trans (contrEquiv1_symm_val DD 128 DD_rank DD_size r)

/-- The right operand's index there is `(r, p)`. -/
private theorem DD_rhsIdx (b : Fin 64) (p : Fin 8192) (r : Fin 128) :
    DD.rhsIdx (ix2 b p) ((contrEquiv1 DD 128 DD_rank DD_size).symm r) = ix2 r p := by
  funext a
  refine Fin.ext ?_
  match a with
  | ⟨0, _⟩ => exact (DD_rhs0 _ _).trans (contrEquiv1_symm_val DD 128 DD_rank DD_size r)
  | ⟨1, _⟩ => exact DD_rhs1 _ _

/-- The product into the zero accumulator at `(b, p)`: the sum over the 128 contracted rows. -/
private theorem matmul_zero_apply (A : FVec Ideal S64x128 .bf16) (B : FVec Ideal S128x8192 .bf16) (b : Fin 64) (p : Fin 8192) :
    matmul DD none A B (constant (F := Ideal) S64x8192 .f32 0x00000000#32) (ix2 b p)
      = ∑ r : Fin 128, A (ix2 b r) * B (ix2 r p) := by
  simp only [matmul]
  rw [Ideal.matmul_constant_zero_apply, ← Equiv.sum_comp (contrEquiv1 DD 128 DD_rank DD_size).symm]
  refine Finset.sum_congr rfl fun r _ => ?_
  rw [DD_lhsIdx, DD_rhsIdx]

/-! ## Columns, broadcasts, the lane number -/

/-- Column `j` of a `[128, 4]` tile, loaded as a `[128, 1]` block, reads the tile at `(r, j)`. -/
private theorem colLd {Val : EltTy → Type} {e : EltTy} (x : S128x4.Idx → Val e) (j : Fin 4)
    (inb : ∀ a, (![0, j.val] : Fin 2 → Nat) a + (![128, 1] : Fin 2 → Nat) a ≤ S128x4.size a) (r : Fin 128) :
    View.ld x (Rect.unit ![0, j.val] ![128, 1] inb) (ix2 r (0 : Fin 1)) = x (ix2 r j) := by
  show x _ = x _
  congr 1
  funext a
  refine Fin.ext ?_
  match a with
  | ⟨0, _⟩ => show 0 + 1 * r.val = r.val; omega
  | ⟨1, _⟩ => show j.val + 1 * 0 = j.val; omega

/-- A `[128, 1]` column broadcast over the 8192 lanes reads, at `(r, p)`, the column at row `r`. -/
private theorem bcastCol {α : Type} (v : S128x1.Idx → α) (r : Fin 128) (p : Fin 8192) :
    broadcastTo S128x8192 v broadcasts_S128x1_S128x8192 (ix2 r p) = v (ix2 r (0 : Fin 1)) := by
  refine broadcastTo_apply v _ (ix2 r p) (ix2 r (0 : Fin 1)) fun a => ?_
  match a with
  | ⟨0, _⟩ => rfl
  | ⟨1, _⟩ => rfl

/-- The lane iota at `(r, p)` is the column number as a 32-bit word. -/
private theorem laneIota (r : Fin 128) (p : Fin 8192) :
    iota Kind.tc S128x8192 32 [1] iota_S128x8192_d1_w32 (ix2 r p) = BitVec.ofNat 32 p.val :=
  iota_single_apply Kind.tc S128x8192 32 1 iota_S128x8192_d1_w32 (ix2 r p)

/-- A select of a value against zero on a word test is the `if`. -/
private theorem sel_eq (a c : BitVec 32) (s : EReal) :
    Scalar.select (IntOp.cmpi .eq a c) s (0 : EReal) = if a = c then s else 0 := by
  by_cases h : a = c
  · subst h
    rw [if_pos rfl]
    show Scalar.select (BitVec.ofBool (a == a)) s 0 = s
    rw [beq_self_eq_true]
    exact select_one _ _
  · rw [if_neg h]
    show Scalar.select (BitVec.ofBool (a == c)) s 0 = 0
    rw [beq_false_of_ne h]
    exact select_zero _ _

/-- One one-hot tile at `(r, p)`: the sign column's row where the index column's row is the lane word, else zero. -/
private theorem term_apply (vi : Vec Ideal S128x1 .i32) (vs : FVec Ideal S128x1 .f32) (v3 : IVec S128x8192 32)
    (r : Fin 128) (p : Fin 8192) :
    select (cmpi .eq (broadcastTo S128x8192 vi broadcasts_S128x1_S128x8192) v3)
        (broadcastTo S128x8192 vs broadcasts_S128x1_S128x8192)
        (broadcast S128x8192 (Scalar.ofBits (F := Ideal) .f32 0x00000000#32)) (ix2 r p)
      = if vi (ix2 r (0 : Fin 1)) = v3 (ix2 r p) then vs (ix2 r (0 : Fin 1)) else 0 := by
  rw [select_apply, broadcast_apply, bcastCol]
  show Scalar.select (IntOp.cmpi .eq (broadcastTo S128x8192 vi broadcasts_S128x1_S128x8192 (ix2 r p)) (v3 (ix2 r p)))
      (vs (ix2 r (0 : Fin 1))) (Ideal.ofBits .f32 0x00000000#32) = _
  rw [bcastCol, Ideal.ofBits_zero_f32]
  exact sel_eq _ _ _

/-- The first three one-hot tiles, summed, at `(r, p)`. -/
private theorem pay3_apply (v4 : Vec Ideal S128x1 .i32) (v5 : Vec Ideal S128x1 .f32) (v13 : Vec Ideal S128x1 .i32)
    (v14 : Vec Ideal S128x1 .f32) (v23 : Vec Ideal S128x1 .i32) (v24 : Vec Ideal S128x1 .f32) (r : Fin 128) (p : Fin 8192) :
    k0_pay3 (F := Ideal) v4 v5 v13 v14 v23 v24 (ix2 r p)
      = ((if v4 (ix2 r (0 : Fin 1)) = BitVec.ofNat 32 p.val then v5 (ix2 r (0 : Fin 1)) else 0)
          + (if v13 (ix2 r (0 : Fin 1)) = BitVec.ofNat 32 p.val then v14 (ix2 r (0 : Fin 1)) else 0))
        + (if v23 (ix2 r (0 : Fin 1)) = BitVec.ofNat 32 p.val then v24 (ix2 r (0 : Fin 1)) else 0) := by
  unfold k0_pay3
  simp only [shapeCast_self]
  rw [addf_apply, addf_apply, term_apply, term_apply, term_apply, laneIota]

/-- The stored value at `(0, b, p)`: the slab there plus the product of the x-tile's row `b` with column `p` of the
    coefficient tile, the fourth one-hot tile added to the first three. -/
private theorem pay1_apply (v3 : IVec S128x8192 32) (v32 : FVec Ideal S128x8192 .f32) (v33 : Vec Ideal S128x1 .i32)
    (v35 : FVec Ideal S128x1 .f32) (v43 : Vec Ideal S64x128 .f32) (v46 : Vec Ideal S1x64x8192 .f32)
    (b : Fin 64) (p : Fin 8192) :
    k0_pay1 (F := Ideal) v3 v32 v33 v35 v43 v46 (ix3 (0 : Fin 1) b p)
      = v46 (ix3 (0 : Fin 1) b p) + ∑ r : Fin 128, v43 (ix2 b r) *
          (v32 (ix2 r p) + (if v33 (ix2 r (0 : Fin 1)) = v3 (ix2 r p) then v35 (ix2 r (0 : Fin 1)) else 0)) := by
  unfold k0_pay1
  simp only [shapeCast_self]
  refine (shapeCast_ab_1ab_apply _ _ (0 : Fin 1) b p).trans ?_
  rw [addf_apply, shapeCast_1ab_ab_apply, matmul_zero_apply]
  refine congrArg (v46 (ix3 (0 : Fin 1) b p) + ·) (Finset.sum_congr rfl fun r _ => ?_)
  rw [truncf_apply, truncf_apply, addf_apply, term_apply]

/-- The zero slab is zero at every index. -/
theorem zeroSlab_apply (y : S1x64x8192.Idx) : zeroSlab (F := Ideal) y = 0 := by
  show Ideal.ofBits .f32 0x00000000#32 = 0
  exact Ideal.ofBits_zero_f32

/-- The point's store at `(0, b, p)`. -/
theorem body_apply (x0 : Vec Ideal S64x128 .f32) (x1 : Vec Ideal S128x4 .i32) (x2 : Vec Ideal S128x4 .f32)
    (xo : Vec Ideal S1x64x8192 .f32) (b : Fin 64) (p : Fin 8192) :
    body (F := Ideal) x0 x1 x2 xo (ix3 (0 : Fin 1) b p)
      = xo (ix3 (0 : Fin 1) b p) + ∑ r : Fin 128, x0 (ix2 b r) *
          (((pterm x1 x2 r p 0 + pterm x1 x2 r p 1) + pterm x1 x2 r p 2) + pterm x1 x2 r p 3) := by
  unfold body
  rw [pay1_apply]
  refine congrArg (xo (ix3 (0 : Fin 1) b p) + ·) (Finset.sum_congr rfl fun r _ => ?_)
  have h10 : View.ld x1 (Rect.unit ![0, 0] ![128, 1] inb_S128x4_S128x1_0_0) (ix2 r (0 : Fin 1)) = x1 (ix2 r 0) :=
    colLd x1 0 _ r
  have h20 : View.ld x2 (Rect.unit ![0, 0] ![128, 1] inb_S128x4_S128x1_0_0) (ix2 r (0 : Fin 1)) = x2 (ix2 r 0) :=
    colLd x2 0 _ r
  have h11 : View.ld x1 (Rect.unit ![0, 1] ![128, 1] inb_S128x4_S128x1_0_1) (ix2 r (0 : Fin 1)) = x1 (ix2 r 1) :=
    colLd x1 1 _ r
  have h21 : View.ld x2 (Rect.unit ![0, 1] ![128, 1] inb_S128x4_S128x1_0_1) (ix2 r (0 : Fin 1)) = x2 (ix2 r 1) :=
    colLd x2 1 _ r
  have h12 : View.ld x1 (Rect.unit ![0, 2] ![128, 1] inb_S128x4_S128x1_0_2) (ix2 r (0 : Fin 1)) = x1 (ix2 r 2) :=
    colLd x1 2 _ r
  have h22 : View.ld x2 (Rect.unit ![0, 2] ![128, 1] inb_S128x4_S128x1_0_2) (ix2 r (0 : Fin 1)) = x2 (ix2 r 2) :=
    colLd x2 2 _ r
  have h13 : View.ld x1 (Rect.unit ![0, 3] ![128, 1] inb_S128x4_S128x1_0_3) (ix2 r (0 : Fin 1)) = x1 (ix2 r 3) :=
    colLd x1 3 _ r
  have h23 : View.ld x2 (Rect.unit ![0, 3] ![128, 1] inb_S128x4_S128x1_0_3) (ix2 r (0 : Fin 1)) = x2 (ix2 r 3) :=
    colLd x2 3 _ r
  rw [pay3_apply, laneIota]
  unfold k0_pay4 pterm
  rw [shapeCast_self, h10, h20, h11, h21, h12, h22, h13, h23]

end Cert.KernelIdeal.Val

end
-- ==== Proof.KBlocks.lean ====
/-
  The blocks a grid point is handed, read at an index. Point `t` of the 4096 (slab `t / 2048`, step `t % 2048`)
  is handed rows `128·t … 128·t + 127`: columns of `x`, rows of the index array and of the scaled-sign array. The
  scaled-sign array is what the host lines before the region compute from the sign words: `(2·s − 1)·(1/2)`, a real.
-/
import proofs.«411114_j37185826848858_3_alg».proof.Proof.Gen.KernelIdeal.Frame
import proofs.«411114_j37185826848858_3_alg».proof.Proof.Spec
import Idealize.ShloMosaic.PureOps.Ideal.Laws
import Idealize.ShloMosaic.Lib.ValueIdx
import Idealize.ShloMosaic.Lib.Pipeline.Value
import Idealize.ShloMosaic.Lib.StableHlo.Run

noncomputable section

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- A grid point as a tile number. -/
def pt (t : Fin cfg0.N) : Fin 4096 := ⟨t.val, lt_of_lt_of_eq t.isLt (show cfg0.N = 4096 from N_0)⟩

/-- The three input blocks at point `t`, at their literal types. -/
abbrev xblk (c : Dev nD) (t : Fin cfg0.N) : Vec Ideal S64x128 .f32 := iblk m c 0 t
abbrev idxblk (c : Dev nD) (t : Fin cfg0.N) : Vec Ideal S128x4 .i32 := iblk m c 1 t
abbrev sgnblk (c : Dev nD) (t : Fin cfg0.N) : Vec Ideal S128x4 .f32 := iblk m c 2 t

/-! ## The printed index maps, decided once over the 4096 points

Point `t` is `(i₀, i₁)` with `i₀·2048 + i₁ = t`; the maps compute that number in 32-bit words (no wrap below 4096).
The x window's block index is `(0, t)`; the index and scaled-sign windows' is `(t, 0)`. -/

theorem idx_facts0 : ∀ t : Fin cfg0.N, win0_0.index t 0 = 0 ∧ win0_0.index t 1 = t.val :=
  (by decide +kernel : ∀ t : Fin grid0.N, win0_0.index t 0 = 0 ∧ win0_0.index t 1 = t.val)
theorem idx_facts1 : ∀ t : Fin cfg0.N, win0_1.index t 0 = t.val ∧ win0_1.index t 1 = 0 :=
  (by decide +kernel : ∀ t : Fin grid0.N, win0_1.index t 0 = t.val ∧ win0_1.index t 1 = 0)
theorem idx_facts2 : ∀ t : Fin cfg0.N, win0_2.index t 0 = t.val ∧ win0_2.index t 1 = 0 :=
  (by decide +kernel : ∀ t : Fin grid0.N, win0_2.index t 0 = t.val ∧ win0_2.index t 1 = 0)

/-! ## The blocks of the two argument arrays

A block's coordinate along an axis is (block index) × (block extent) + (coordinate inside the block); the host lines
before the region write neither argument, so the region finds both as launched. -/

/-- The x-tile at `(b, r)` is `x` at `(b, 128·t + r)`. -/
theorem xblk_apply (c : Dev nD) (t : Fin cfg0.N) (b : Fin 64) (r : Fin 128) :
    xblk m c t (ix2 b r) = m ((c.tc : Thread nD τ).loc main_arg0) (ix2 b (Cert.Sjlt.dOf (pt t) r)) := by
  rw [← V_main_arg0 m c]
  unfold xblk iblk
  rw [View.read_apply]
  show V m c main_arg0 _ = V m c main_arg0 _
  congr 1
  funext a
  apply Fin.ext
  match a with
  | ⟨0, _⟩ => show win0_0.index t 0 * 64 + 1 * b.val = b.val; rw [(idx_facts0 t).1]; omega
  | ⟨1, _⟩ => show win0_0.index t 1 * 128 + 1 * r.val = t.val * 128 + r.val; rw [(idx_facts0 t).2]; omega

/-- The index tile at `(r, j)` is the index array at `(128·t + r, j)`. -/
theorem idxblk_apply (c : Dev nD) (t : Fin cfg0.N) (r : Fin 128) (j : Fin 4) :
    idxblk m c t (ix2 r j) = m ((c.tc : Thread nD τ).loc main_arg1) (ix2 (Cert.Sjlt.dOf (pt t) r) j) := by
  rw [← V_main_arg1 m c]
  unfold idxblk iblk
  rw [View.read_apply]
  show V m c main_arg1 _ = V m c main_arg1 _
  congr 1
  funext a
  apply Fin.ext
  match a with
  | ⟨0, _⟩ => show win0_1.index t 0 * 128 + 1 * r.val = t.val * 128 + r.val; rw [(idx_facts1 t).1]; omega
  | ⟨1, _⟩ => show win0_1.index t 1 * 4 + 1 * j.val = j.val; rw [(idx_facts1 t).2]; omega

/-! ## The scaled-sign array

It is no argument: the host lines before the region compute it, entry by entry, from the sign words:
`s ↦ (2·s − 1)·(1/2)` with `2`, `1`, `1/2` spelled as single-precision patterns. -/

/-- The scaled-sign tile at `(r, j)` is the scaled-sign array at `(128·t + r, j)`. -/
theorem sgnblk_eq (c : Dev nD) (t : Fin cfg0.N) (r : Fin 128) (j : Fin 4) :
    sgnblk m c t (ix2 r j) = V m c main_v6 (ix2 (Cert.Sjlt.dOf (pt t) r) j) := by
  unfold sgnblk iblk
  rw [View.read_apply]
  show V m c main_v6 _ = V m c main_v6 _
  congr 1
  funext a
  apply Fin.ext
  match a with
  | ⟨0, _⟩ => show win0_2.index t 0 * 128 + 1 * r.val = t.val * 128 + r.val; rw [(idx_facts2 t).1]; omega
  | ⟨1, _⟩ => show win0_2.index t 1 * 4 + 1 * j.val = j.val; rw [(idx_facts2 t).2]; omega

/-- The pattern `0x40000000` denotes `2`: exponent field 128, empty fraction, `2^23 · 2^(128 − 127 − 23)`. -/
theorem ofBits_two : Ideal.ofBits .f32 0x40000000#32 = ((2 : ℝ) : EReal) := by
  simp [Ideal.ofBits, Ideal.ieee, -EReal.coe_mul]; norm_num
/-- The pattern `0x3F800000` denotes `1`: exponent field 127. -/
theorem ofBits_one : Ideal.ofBits .f32 0x3F800000#32 = ((1 : ℝ) : EReal) := by
  simp [Ideal.ofBits, Ideal.ieee, -EReal.coe_mul]; norm_num
/-- The pattern `0x3F000000` denotes `1/2`: exponent field 126. -/
theorem ofBits_half : Ideal.ofBits .f32 0x3F000000#32 = ((1 / 2 : ℝ) : EReal) := by
  simp [Ideal.ofBits, Ideal.ieee, -EReal.coe_mul]; norm_num

/-- The scaled-sign array as the host lines compute it from the sign words: each line's result at its own buffer is
    its operation of the earlier lines' results, and no line writes the sign words. -/
theorem V_main_v6 (c : Dev nD) :
    (V m c main_v6 : S524288x4.Idx → EReal)
      = mulf (subf (mulf (broadcastInDim S524288x4 ![] bcast_S_S524288x4 (constant (F := Ideal) S_ .f32 0x40000000#32))
                          (sitofp .f32 (m ((c.tc : Thread nD τ).loc main_arg2))))
                   (broadcastInDim S524288x4 ![] bcast_S_S524288x4 (constant (F := Ideal) S_ .f32 0x3F800000#32)))
             (broadcastInDim S524288x4 ![] bcast_S_S524288x4 (constant (F := Ideal) S_ .f32 0x3F000000#32)) := by
  show StableHlo.after (List.flatten [hostOps0]) (fun b => m (c, b)) (Proc.devRef .tc main_v6) = _
  simp only [List.flatten_cons, List.flatten_nil, List.append_nil]
  after_results

/-- The scaled-sign tile at `(r, j)` is the real `(2·s − 1)·(1/2)` of the sign word at `(128·t + r, j)`. -/
theorem sgnblk_apply (c : Dev nD) (t : Fin cfg0.N) (r : Fin 128) (j : Fin 4) :
    sgnblk m c t (ix2 r j)
      = ((Cert.Sjlt.half (m ((c.tc : Thread nD τ).loc main_arg2)) (Cert.Sjlt.dOf (pt t) r) j : ℝ) : EReal) := by
  rw [sgnblk_eq, V_main_v6]
  -- entrywise: a product, a difference, a product; a broadcast scalar reads the scalar; a converted word is its integer
  rw [mulf_apply, subf_apply, mulf_apply, sitofp_apply]
  show (Ideal.ofBits .f32 0x40000000#32 * FloatOps.sitofp .f32 _ - Ideal.ofBits .f32 0x3F800000#32) * Ideal.ofBits .f32 0x3F000000#32 = _
  rw [ofBits_two, ofBits_one, ofBits_half]
  show (((2 : ℝ) : EReal) * ((((m ((c.tc : Thread nD τ).loc main_arg2)) (ix2 (Cert.Sjlt.dOf (pt t) r) j)).toInt : ℝ) : EReal) - ((1 : ℝ) : EReal)) * ((1 / 2 : ℝ) : EReal) = _
  -- all finite: the arithmetic of extended reals is the reals'
  rw [← EReal.coe_mul, ← EReal.coe_sub, ← EReal.coe_mul]
  rfl

end Cert.KernelIdeal.Val

end
-- ==== Proof.AccLaws.lean ====
/-
  How the running slab sum moves from one tile to the next: at a tile whose number is a multiple of 2048 the slab
  restarts and holds that tile's product alone; at any other tile it gains that tile's product.
-/
import proofs.«411114_j37185826848858_3_alg».proof.Proof.Spec

noncomputable section

namespace Cert.Sjlt

open Idealize.ShloMosaic Idealize.ShloMosaic.ValueIdx

/-- At a reset the sum runs over the one tile. -/
theorem acc_reset (xr : SX.Idx → ℝ) (I S : IVec SI 32) (n : ℕ) (hn : n < 4096) (h0 : n % 2048 = 0)
    (b : Fin 64) (p : Fin 8192) : acc xr I S n b p = Mr xr I S ⟨n, hn⟩ b p := by
  unfold acc
  have e : (Finset.univ.filter (fun t : Fin 4096 => n - n % 2048 ≤ t.val ∧ t.val ≤ n)) = {⟨n, hn⟩} := by
    ext t
    simp only [Finset.mem_filter, Finset.mem_univ, true_and, Finset.mem_singleton, Fin.ext_iff]
    omega
  rw [e, Finset.sum_singleton]

/-- Between resets the sum gains the next tile. -/
theorem acc_step (xr : SX.Idx → ℝ) (I S : IVec SI 32) (n : ℕ) (hn : n + 1 < 4096) (h0 : ¬(n + 1) % 2048 = 0)
    (b : Fin 64) (p : Fin 8192) : acc xr I S (n + 1) b p = acc xr I S n b p + Mr xr I S ⟨n + 1, hn⟩ b p := by
  unfold acc
  have e : (Finset.univ.filter (fun t : Fin 4096 => n + 1 - (n + 1) % 2048 ≤ t.val ∧ t.val ≤ n + 1))
      = insert (⟨n + 1, hn⟩ : Fin 4096) (Finset.univ.filter (fun t : Fin 4096 => n - n % 2048 ≤ t.val ∧ t.val ≤ n)) := by
    ext t
    simp only [Finset.mem_filter, Finset.mem_univ, true_and, Finset.mem_insert, Fin.ext_iff]
    omega
  have hni : (⟨n + 1, hn⟩ : Fin 4096) ∉ Finset.univ.filter (fun t : Fin 4096 => n - n % 2048 ≤ t.val ∧ t.val ≤ n) := by
    simp only [Finset.mem_filter, Finset.mem_univ, true_and]
    omega
  rw [e, Finset.sum_insert hni, add_comm]

end Cert.Sjlt

end
-- ==== Proof.KAccum.lean ====
/-
  What the output slab's staging buffer holds after each grid point: the real running sum `acc` of the tile
  products since the slab's last reset. By induction on the point: a reset point leaves the tile's product over
  the zero block, any other point adds the tile's product to what the point before left. All the numbers are
  reals: `x` by hypothesis, the scaled signs by construction, so sums and products of their readings in the
  extended reals are the readings of the real sums and products.
-/
import proofs.«411114_j37185826848858_3_alg».proof.Proof.KPieces
import proofs.«411114_j37185826848858_3_alg».proof.Proof.KPayload
import proofs.«411114_j37185826848858_3_alg».proof.Proof.KBlocks
import proofs.«411114_j37185826848858_3_alg».proof.Proof.AccLaws

noncomputable section

namespace Cert.KernelIdeal.Val

open Idealize.ShloMosaic Idealize.ShloMosaic.TcCoe Idealize.ShloMosaic.ValueIdx Idealize.SL.Sem
open Cert.KernelIdeal Cert.KernelIdeal.Gen
open Cert.Sjlt (SX SI dOf half term coeff Mr acc coe_sum acc_reset acc_step)

variable (m : (ℓ : Loc nD τ sig) → Buf (Elt Ideal) ℓ)

/-- The index words and the sign words of core `c`'s arguments. -/
abbrev Iw (c : Dev nD) : IVec SI 32 := m ((c.tc : Thread nD τ).loc main_arg1)
abbrev Sw (c : Dev nD) : IVec SI 32 := m ((c.tc : Thread nD τ).loc main_arg2)

/-- A 32-bit word is the word of a column number `p < 8192` exactly when it reads `p`. -/
theorem word_eq_iff (w : BitVec 32) (p : Fin 8192) : w = BitVec.ofNat 32 p.val ↔ w.toNat = p.val := by
  have hp : p.val < 2 ^ 32 := lt_trans p.isLt (by norm_num)
  constructor
  · intro h; rw [h, BitVec.toNat_ofNat, Nat.mod_eq_of_lt hp]
  · intro h; apply BitVec.eq_of_toNat_eq; rw [BitVec.toNat_ofNat, Nat.mod_eq_of_lt hp, h]

/-- A one-hot term over the point's tiles is the real term of the specification. -/
theorem pterm_real (c : Dev nD) (t : Fin cfg0.N) (r : Fin 128) (p : Fin 8192) (j : Fin 4) :
    pterm (idxblk m c t) (sgnblk m c t) r p j = ((term (Iw m c) (Sw m c) (dOf (pt t) r) p j : ℝ) : EReal) := by
  unfold pterm term
  rw [idxblk_apply m c t r j, sgnblk_apply m c t r j]
  by_cases h : (Iw m c (ix2 (dOf (pt t) r) j)).toNat = p.val
  · rw [if_pos ((word_eq_iff _ p).mpr h), if_pos h]
  · rw [if_neg (fun h' => h ((word_eq_iff _ p).mp h')), if_neg h, EReal.coe_zero]

variable (xr : SX.Idx → ℝ)

/-- One point's store over a slab `xo`, at `(0, b, p)`: the slab's entry plus the tile's real product. -/
theorem step_real (c : Dev nD) (hX : ∀ i, m ((c.tc : Thread nD τ).loc main_arg0) i = ((xr i : ℝ) : EReal))
    (t : Fin cfg0.N) (xo : Vec Ideal S1x64x8192 .f32) (b : Fin 64) (p : Fin 8192) :
    body (F := Ideal) (xblk m c t) (idxblk m c t) (sgnblk m c t) xo (ix3 (0 : Fin 1) b p)
      = xo (ix3 (0 : Fin 1) b p) + ((Mr xr (Iw m c) (Sw m c) (pt t) b p : ℝ) : EReal) := by
  refine (body_apply (xblk m c t) (idxblk m c t) (sgnblk m c t) xo b p).trans ?_
  congr 1
  unfold Mr
  rw [coe_sum]
  refine Finset.sum_congr rfl fun r _ => ?_
  rw [xblk_apply m c t b r, hX, pterm_real m c t r p 0, pterm_real m c t r p 1, pterm_real m c t r p 2,
    pterm_real m c t r p 3]
  unfold coeff
  simp only [EReal.coe_add, EReal.coe_mul]

/-- A slab index is `(0, b, p)`. -/
theorem slab_idx (y : S1x64x8192.Idx) : ∃ (b : Fin 64) (p : Fin 8192), y = ix3 (0 : Fin 1) b p :=
  ⟨y 1, y 2, by
    have h := eq_ix3 y
    have h0 : y 0 = (0 : Fin 1) := Fin.ext (by have h1 : (y 0).val < 1 := (y 0).isLt; show (y 0).val = 0; omega)
    rw [h0] at h
    exact h⟩

/-- THE RUNNING SUM: after point `n` the slab's staging buffer holds `acc … n`, entry by entry. -/
theorem outsAt_eq (c : Dev nD) (hX : ∀ i, m ((c.tc : Thread nD τ).loc main_arg0) i = ((xr i : ℝ) : EReal)) :
    ∀ (n : ℕ) (h : n < cfg0.N) (b : Fin 64) (p : Fin 8192),
      outsAt0 m c n h (ix3 (0 : Fin 1) b p) = ((acc xr (Iw m c) (Sw m c) n b p : ℝ) : EReal)
  | 0, h, b, p => by
    have hN : (0 : ℕ) < 4096 := by norm_num
    rw [outsAt0_A m c ⟨0, h⟩ rfl, out_A]
    refine (step_real m xr c hX ⟨0, h⟩ (zeroSlab (F := Ideal)) b p).trans ?_
    rw [zeroSlab_apply, zero_add, acc_reset xr _ _ 0 hN rfl b p]
    rfl
  | n + 1, h, b, p => by
    have hN : n + 1 < 4096 := lt_of_lt_of_eq h (show cfg0.N = 4096 from N_0)
    by_cases h0 : (n + 1) % 2048 = 0
    · rw [outsAt0_A m c ⟨n + 1, h⟩ h0, out_A]
      refine (step_real m xr c hX ⟨n + 1, h⟩ (zeroSlab (F := Ideal)) b p).trans ?_
      rw [zeroSlab_apply, zero_add, acc_reset xr _ _ (n + 1) hN h0 b p]
      rfl
    · rw [outsAt0_B m c ⟨n + 1, h⟩ h0, out_B]
      refine (step_real m xr c hX ⟨n + 1, h⟩ _ b p).trans ?_
      have ih := outsAt_eq c hX n (Nat.lt_of_succ_lt h) b p
      have e : outsAt0 m c ((⟨n + 1, h⟩ : Fin cfg0.N).val - 1) (Nat.lt_of_le_of_lt (Nat.sub_le _ _) (⟨n + 1, h⟩ : Fin cfg0.N).isLt)
          (ix3 (0 : Fin 1) b p) = outsAt0 m c n (Nat.lt_of_succ_lt h) (ix3 (0 : Fin 1) b p) := rfl
      rw [e, ih, acc_step xr _ _ n hN h0 b p, EReal.coe_add]
      rfl

end Cert.KernelIdeal.Val

end
-- ==== Proof.KFinal.lean ====
/-
  The kernel's result. The output array [2, 64, 8192] is written back twice, after points 2047 and 4095: slab `s`
  ends holding the running sum after its last point, `acc … (2048·s + 2047)`. The host lines after the region take
  the two slabs apart and add them: entry `(b, p)` of the result is the real `Kval … b p`.
-/
import proofs.«411114_j37185826848858_3_alg».proof.Proof.KAccum
import Idealize.ShloMosaic.Lib.StableHlo.Run

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen
open Cert.Sjlt (SX SI acc Kval)

variable (m : (ℓ : Loc nD τ sig) → Buf (Elt Ideal) ℓ) (ρ : Dev nD → PrngReg) (xr : SX.Idx → ℝ)

/-- The output's block index at point `t` is the slab number `t / 2048`, decided over the grid. -/
theorem idx_facts3 : ∀ t : Fin cfg0.N, win0_3.index t (0 : Fin 3) = t.val / 2048 ∧ win0_3.index t (1 : Fin 3) = 0
    ∧ win0_3.index t (2 : Fin 3) = 0 :=
  (by decide +kernel : ∀ t : Fin grid0.N, _)

/-- What the two slabs end holding. -/
def slabs (c : Dev nD) : S2x64x8192.Idx → EReal :=
  fun i => ((acc xr (Iw m c) (Sw m c) ((i 0).val * 2048 + 2047) (i 1) (i 2) : ℝ) : EReal)

/-- What a flushing point writes back is its slab of `slabs`. -/
theorem flushed_eq (c : Dev nD) (hX : ∀ i, m ((c.tc : Thread nD τ).loc main_arg0) i = ((xr i : ℝ) : EReal))
    (t : Fin cfg0.N) (hf : (cfg0.win 3).flush t = true) :
    (dats m 0 c).flushed 3 t = ((cfg0.win 3).blk t).view.read (Elt Ideal) (slabs m xr c) := by
  have h47 : t.val % 2048 = 2047 := (flush0_3 t).mp hf
  have hN : t.val < 4096 := lt_of_lt_of_eq t.isLt (show cfg0.N = 4096 from N_0)
  obtain ⟨e0, e1, e2⟩ := idx_facts3 t
  show (cfg0.win 3).cut (grid0.coords t) ((dats m 0 c).after 3 t) = _
  rw [after0_3]
  funext y
  obtain ⟨b, p, rfl⟩ := slab_idx y
  rw [View.read_apply]
  show outsAt0 m c t.val t.isLt (ix3 (0 : Fin 1) b p) = slabs m xr c (((cfg0.win 3).blk t).view.emb (ix3 (0 : Fin 1) b p))
  rw [outsAt_eq m xr c hX t.val t.isLt b p]
  have he : ((cfg0.win 3).blk t).view.emb (ix3 (0 : Fin 1) b p) = ix3 (⟨t.val / 2048, by omega⟩ : Fin 2) b p := by
    funext a; apply Fin.ext
    match a with
    | ⟨0, _⟩ => show win0_3.index t (0 : Fin 3) * 1 + 1 * 0 = t.val / 2048; omega
    | ⟨1, _⟩ => show win0_3.index t (1 : Fin 3) * 64 + 1 * b.val = b.val; omega
    | ⟨2, _⟩ => show win0_3.index t (2 : Fin 3) * 8192 + 1 * p.val = p.val; omega
  rw [he]
  unfold slabs
  have hv : t.val = t.val / 2048 * 2048 + 2047 := by omega
  show ((acc xr (Iw m c) (Sw m c) t.val b p : ℝ) : EReal) = ((acc xr (Iw m c) (Sw m c) (t.val / 2048 * 2048 + 2047) b p : ℝ) : EReal)
  rw [← hv]

/-- The point that writes slab `s` back. -/
def lastPt (s : Fin 2) : Fin cfg0.N := ⟨s.val * 2048 + 2047, by rw [show cfg0.N = 4096 from N_0]; have := s.isLt; omega⟩

/-- So the output array ends holding the two slabs. -/
theorem final3 (c : Dev nD) (hX : ∀ i, m ((c.tc : Thread nD τ).loc main_arg0) i = ((xr i : ℝ) : EReal)) :
    (dats m 0 c).arrAt 3 cfg0.N = slabs m xr c :=
  (dats m 0 c).arrAt_eq_of_cover 3 (slabs m xr c) (flushed_eq m xr c hX) fun i => by
    have hi0 : (i 0).val < 2 := (i 0).isLt
    have hi1 : (i 1).val < 64 := (i 1).isLt
    have hi2 : (i 2).val < 8192 := (i 2).isLt
    refine ⟨lastPt ⟨(i 0).val, hi0⟩, (flush0_3 _).mpr (by show ((i 0).val * 2048 + 2047) % 2048 = 2047; omega), ?_⟩
    obtain ⟨e0, e1, e2⟩ := idx_facts3 (lastPt ⟨(i 0).val, hi0⟩)
    have ev : (lastPt ⟨(i 0).val, hi0⟩).val = (i 0).val * 2048 + 2047 := rfl
    show i ∈ ((View.whole main_v7).slice (win0_3.rect (lastPt ⟨(i 0).val, hi0⟩))).set
    rw [View.set_slice_whole, Rect.mem_set_unit]
    intro a
    match a with
    | ⟨0, _⟩ => show win0_3.index (lastPt ⟨(i 0).val, hi0⟩) (0 : Fin 3) * 1 ≤ (i 0).val ∧ (i 0).val < win0_3.index (lastPt ⟨(i 0).val, hi0⟩) (0 : Fin 3) * 1 + 1; omega
    | ⟨1, _⟩ => show win0_3.index (lastPt ⟨(i 0).val, hi0⟩) (1 : Fin 3) * 64 ≤ (i 1).val ∧ (i 1).val < win0_3.index (lastPt ⟨(i 0).val, hi0⟩) (1 : Fin 3) * 64 + 64; omega
    | ⟨2, _⟩ => show win0_3.index (lastPt ⟨(i 0).val, hi0⟩) (2 : Fin 3) * 8192 ≤ (i 2).val ∧ (i 2).val < win0_3.index (lastPt ⟨(i 0).val, hi0⟩) (2 : Fin 3) * 8192 + 8192; omega

/-- Slab `s` of a [2, 64, 8192] array, sliced out and viewed [64, 8192], at `(b, p)` is the array at `(s, b, p)`. -/
theorem slice_slab (W : S2x64x8192.Idx → EReal) (s : Fin 2) (off : Fin 3 → Nat) (hoff : off = ![s.val, 0, 0])
    (h : S2x64x8192.Slices off S1x64x8192) (hc : S1x64x8192.ShapeCasts S64x8192) (b : Fin 64) (p : Fin 8192) :
    shapeCast S64x8192 (extractStridedSlice S1x64x8192 off W h) hc (ix2 b p) = W (ix3 s b p) := by
  subst hoff
  rw [shapeCast_dropUnit_apply (d := ![64, 8192])]
  unfold extractStridedSlice
  congr 1
  funext a; apply Fin.ext
  match a with
  | ⟨0, _⟩ => show s.val + 0 = s.val; omega
  | ⟨1, _⟩ => show 0 + b.val = b.val; omega
  | ⟨2, _⟩ => show 0 + p.val = p.val; omega

/-- The host lines after the region: the result is the sum of the two slabs, the real `Kval`. -/
theorem result_eq (c : Dev nD) (hX : ∀ i, m ((c.tc : Thread nD τ).loc main_arg0) i = ((xr i : ℝ) : EReal)) :
    Pipeline.afterTail₀ cfgs (dats m) 0 (V0 m) [hostOps1] c main_v12
      = fun i => ((Kval xr (Iw m c) (Sw m c) (i 0) (i 1) : ℝ) : EReal) := by
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.tc.devRef main_v7)
      = slabs m xr c from (Pipeline.withArrays_arr spec0 launch0.win.arr_inj c _ _ 3).trans (final3 m xr c hX)]
  funext i
  obtain ⟨b, p, rfl⟩ : ∃ (b : Fin 64) (p : Fin 8192), i = ix2 b p := ⟨i 0, i 1, eq_ix2 i⟩
  show shapeCast S64x8192 (extractStridedSlice S1x64x8192 ![0, 0, 0] (slabs m xr c) slices_S2x64x8192_S1x64x8192_0_0_0) shapeCasts_S1x64x8192_S64x8192 (ix2 b p)
      + shapeCast S64x8192 (extractStridedSlice S1x64x8192 ![1, 0, 0] (slabs m xr c) slices_S2x64x8192_S1x64x8192_1_0_0) shapeCasts_S1x64x8192_S64x8192 (ix2 b p) = _
  rw [slice_slab (slabs m xr c) 0 ![0, 0, 0] rfl, slice_slab (slabs m xr c) 1 ![1, 0, 0] rfl]
  unfold slabs Kval
  rw [EReal.coe_add]
  rfl

/-- THE KERNEL'S RUN, READ: under real-valued `x` the result buffer ends at `Kval` and the arguments are unchanged. -/
theorem kernel_run (xs : Dev nD → SX.Idx → ℝ)
    (hX : ∀ (c : Dev nD) (i : SX.Idx), m ((c.tc : Thread nD τ).loc main_arg0) i = ((xs c i : ℝ) : EReal)) :
    θ_run defs (onTc (τ := τ) (main (F := Ideal))) ⟨m, fun _ => 0, ρ⟩ fun r => ∀ c : Dev nD,
      r.2.mem ((c.tc : Thread nD τ).loc main_v12) = (fun i => ((Kval (xs c) (Iw m c) (Sw m c) (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (result_eq m (xs c) c (hX c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c))⟩)
    (run_main m ρ)

end Cert.KernelIdeal.Val

end
-- ==== Proof.lean ====
/-
  The sparse sign projection: `out[b, p] = (1/2) · ∑ⱼ ∑_d [idx[d, j] = p] · x[b, d] · (2·s[d, j] − 1)`.

  The kernel builds, per tile of 128 rows, a one-hot coefficient tile from the index and (pre-scaled) sign columns and
  accumulates the matrix products of the x-tiles with it into one slab per half of the rows, adding the two slabs
  at the end; the reference scatter-adds `x · (2·s − 1)` along the column indices, once per `j`, and scales by
  `1 / sqrt 4`. Over the extended reals both are the sum above: every input is a real (the precondition), the
  column indices are non-negative (so the reference's wrap of negative indices never acts) and the sign words are 0 or 1
  (so the reference's integer `2·s − 1` does not wrap), and the rearrangement is the distributive law over the reals.
  The ideal pass rewrote nothing, so `preserves` is trivial; the frames are the generated ones.
-/
import proofs.«411114_j37185826848858_3_alg».proof.Defs
import proofs.«411114_j37185826848858_3_alg».proof.Proof.Gen.Kernel
import proofs.«411114_j37185826848858_3_alg».proof.Proof.Gen.Kernel.Frame
import proofs.«411114_j37185826848858_3_alg».proof.Proof.Gen.KernelIdeal
import proofs.«411114_j37185826848858_3_alg».proof.Proof.Gen.KernelIdeal.Frame
import proofs.«411114_j37185826848858_3_alg».proof.Proof.Gen.ReferenceIdeal
import proofs.«411114_j37185826848858_3_alg».proof.Proof.Gen.ReferenceIdeal.Run
import proofs.«411114_j37185826848858_3_alg».proof.Proof.Gen.ReferenceIdeal.Read
import proofs.«411114_j37185826848858_3_alg».proof.Proof.Gen.Pre_finite_inputs
import proofs.«411114_j37185826848858_3_alg».proof.Proof.PreFacts
import proofs.«411114_j37185826848858_3_alg».proof.Proof.Algebra
import proofs.«411114_j37185826848858_3_alg».proof.Proof.RefValue
import proofs.«411114_j37185826848858_3_alg».proof.Proof.KFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition both programs end with the projection: the kernel's result array at `Kval`, the
    reference's at `T`, of arguments that agree; `Kval = T`. -/
theorem algebraic : Cert.algebraic_KernelIdeal_ReferenceIdeal := by
  intro m ρ m' ρ' hpre hagree
  have hP := fun c => Cert.Sjlt.pre_facts _ _ _ (hpre c)
  choose xr hxr using fun c => (hP c).1
  refine ⟨fun c => fun i => ((Cert.Sjlt.Kval (xr c) (Cert.KernelIdeal.Val.Iw m c) (Cert.KernelIdeal.Val.Sw m c) (i 0) (i 1) : ℝ) : EReal),
    Cert.KernelIdeal.Val.kernel_run m ρ xr hxr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, (hagree c).1, (hagree c).2.1, (hagree c).2.2,
    show m (((c.tc : Thread Cert.KernelIdeal.nD Cert.KernelIdeal.τ)).loc Cert.KernelIdeal.main_arg0)
      = (fun i => ((xr c i : ℝ) : EReal)) from funext (hxr c),
    Cert.Sjlt.ref_value (xr c) _ _ (hP c).2.1 (hP c).2.2]
  funext i
  exact (congrArg (fun r : ℝ => (r : EReal)) (Cert.Sjlt.Kval_eq_T (xr c) (Cert.KernelIdeal.Val.Iw m c)
    (Cert.KernelIdeal.Val.Sw m c) (i 0) (i 1))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
